-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x197x768 : Shape := ⟨3, ![64, 197, 768]⟩
abbrev S2304x768 : Shape := ⟨2, ![2304, 768]⟩
abbrev S2304 : Shape := ⟨1, ![2304]⟩
abbrev S16x768 : Shape := ⟨2, ![16, 768]⟩
abbrev S768x16 : Shape := ⟨2, ![768, 16]⟩
abbrev S_ : Shape := ⟨0, ![]⟩

class Facts : Prop where
  bcast_S_S64x197x768 : S_.BroadcastsInDim S64x197x768 (![] : Fin 0 → Fin S64x197x768.rank)
  reducesTo_S64x197x768_S_d0_1_2 : S64x197x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S16x768 : S_.BroadcastsInDim S16x768 (![] : Fin 0 → Fin S16x768.rank)
  reducesTo_S16x768_S_d0_1 : S16x768.ReducesTo [0, 1] S_
  bcast_S_S768x16 : S_.BroadcastsInDim S768x16 (![] : Fin 0 → Fin S768x16.rank)
  reducesTo_S768x16_S_d0_1 : S768x16.ReducesTo [0, 1] S_

variable [Facts]

def fn_part2 {F : FTy → Type} [FloatOps F] (main_arg7 : FVec F S16x768 .f32) (main_arg8 : FVec F S768x16 .f32) (main_v33 : IVec S_ 1) : IVec S_ 1 :=
  let main_v34 : FVec F S16x768 .f32 := Host.absf main_arg7
  let main_cst_12 : FVec F S_ .f32 := constant S_ .f32 0x7F800000#32
  let main_v35 : FVec F S16x768 .f32 := broadcastInDim S16x768 ![] bcast_S_S16x768 main_cst_12
  let main_v36 : IVec S16x768 1 := cmpf .olt main_v34 main_v35
  let main_c_13 : IVec S_ 1 := constantI S_ 1 1#1
  let main_v37 : IVec S_ 1 := (fun x v => Host.reduce IntOp.andi x v reducesTo_S16x768_S_d0_1 h_S_) main_v36 main_c_13
  let main_v38 : IVec S_ 1 := andi main_v33 main_v37
  let main_v39 : FVec F S768x16 .f32 := Host.absf main_arg8
  let main_cst_14 : FVec F S_ .f32 := constant S_ .f32 0x7F800000#32
  let main_v40 : FVec F S768x16 .f32 := broadcastInDim S768x16 ![] bcast_S_S768x16 main_cst_14
  let main_v41 : IVec S768x16 1 := cmpf .olt main_v39 main_v40
  let main_c_15 : IVec S_ 1 := constantI S_ 1 1#1
  let main_v42 : IVec S_ 1 := (fun x v => Host.reduce IntOp.andi x v reducesTo_S768x16_S_d0_1 h_S_) main_v41 main_c_15
  let main_v43 : IVec S_ 1 := andi main_v38 main_v42
  main_v43

def fn_part1 {F : FTy → Type} [FloatOps F] (main_arg4 : FVec F S768x16 .f32) (main_arg5 : FVec F S16x768 .f32) (main_arg6 : FVec F S768x16 .f32) (main_arg7 : FVec F S16x768 .f32) (main_arg8 : FVec F S768x16 .f32) (main_v13 : IVec S_ 1) (main_v16 : IVec S16x768 1) : IVec S_ 1 :=
  let main_c_5 : IVec S_ 1 := constantI S_ 1 1#1
  let main_v17 : IVec S_ 1 := (fun x v => Host.reduce IntOp.andi x v reducesTo_S16x768_S_d0_1 h_S_) main_v16 main_c_5
  let main_v18 : IVec S_ 1 := andi main_v13 main_v17
  let main_v19 : FVec F S768x16 .f32 := Host.absf main_arg4
  let main_cst_6 : FVec F S_ .f32 := constant S_ .f32 0x7F800000#32
  let main_v20 : FVec F S768x16 .f32 := broadcastInDim S768x16 ![] bcast_S_S768x16 main_cst_6
  let main_v21 : IVec S768x16 1 := cmpf .olt main_v19 main_v20
  let main_c_7 : IVec S_ 1 := constantI S_ 1 1#1
  let main_v22 : IVec S_ 1 := (fun x v => Host.reduce IntOp.andi x v reducesTo_S768x16_S_d0_1 h_S_) main_v21 main_c_7
  let main_v23 : IVec S_ 1 := andi main_v18 main_v22
  let main_v24 : FVec F S16x768 .f32 := Host.absf main_arg5
  let main_cst_8 : FVec F S_ .f32 := constant S_ .f32 0x7F800000#32
  let main_v25 : FVec F S16x768 .f32 := broadcastInDim S16x768 ![] bcast_S_S16x768 main_cst_8
  let main_v26 : IVec S16x768 1 := cmpf .olt main_v24 main_v25
  let main_c_9 : IVec S_ 1 := constantI S_ 1 1#1
  let main_v27 : IVec S_ 1 := (fun x v => Host.reduce IntOp.andi x v reducesTo_S16x768_S_d0_1 h_S_) main_v26 main_c_9
  let main_v28 : IVec S_ 1 := andi main_v23 main_v27
  let main_v29 : FVec F S768x16 .f32 := Host.absf main_arg6
  let main_cst_10 : FVec F S_ .f32 := constant S_ .f32 0x7F800000#32
  let main_v30 : FVec F S768x16 .f32 := broadcastInDim S768x16 ![] bcast_S_S768x16 main_cst_10
  let main_v31 : IVec S768x16 1 := cmpf .olt main_v29 main_v30
  let main_c_11 : IVec S_ 1 := constantI S_ 1 1#1
  let main_v32 : IVec S_ 1 := (fun x v => Host.reduce IntOp.andi x v reducesTo_S768x16_S_d0_1 h_S_) main_v31 main_c_11
  let main_v33 : IVec S_ 1 := andi main_v28 main_v32
  fn_part2 (F := F) main_arg7 main_arg8 main_v33

def fn {F : FTy → Type} [FloatOps F] (main_arg0 : FVec F S64x197x768 .f32) (main_arg1 : FVec F S2304x768 .f32) (main_arg2 : FVec F S2304 .f32) (main_arg3 : FVec F S16x768 .f32) (main_arg4 : FVec F S768x16 .f32) (main_arg5 : FVec F S16x768 .f32) (main_arg6 : FVec F S768x16 .f32) (main_arg7 : FVec F S16x768 .f32) (main_arg8 : FVec F S768x16 .f32) : IVec S_ 1 :=
  let main_v0 : FVec F S64x197x768 .f32 := Host.absf main_arg0
  let main_cst : FVec F S_ .f32 := constant S_ .f32 0x7F800000#32
  let main_v1 : FVec F S64x197x768 .f32 := broadcastInDim S64x197x768 ![] bcast_S_S64x197x768 main_cst
  let main_v2 : IVec S64x197x768 1 := cmpf .olt main_v0 main_v1
  let main_c : IVec S_ 1 := constantI S_ 1 1#1
  let main_v3 : IVec S_ 1 := (fun x v => Host.reduce IntOp.andi x v reducesTo_S64x197x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S16x768 .f32 := Host.absf main_arg3
  let main_cst_4 : FVec F S_ .f32 := constant S_ .f32 0x7F800000#32
  let main_v15 : FVec F S16x768 .f32 := broadcastInDim S16x768 ![] bcast_S_S16x768 main_cst_4
  let main_v16 : IVec S16x768 1 := cmpf .olt main_v14 main_v15
  fn_part1 (F := F) main_arg4 main_arg5 main_arg6 main_arg7 main_arg8 main_v13 main_v16
-- ==== Kernel.lean ====
abbrev S64x197x768 : Shape := ⟨3, ![64, 197, 768]⟩
abbrev S2304x768 : Shape := ⟨2, ![2304, 768]⟩
abbrev S2304 : Shape := ⟨1, ![2304]⟩
abbrev S16x768 : Shape := ⟨2, ![16, 768]⟩
abbrev S768x16 : Shape := ⟨2, ![768, 16]⟩
abbrev S12608x768 : Shape := ⟨2, ![12608, 768]⟩
abbrev S_ : Shape := ⟨0, ![]⟩
abbrev S12800x768 : Shape := ⟨2, ![12800, 768]⟩
abbrev S768x2304 : Shape := ⟨2, ![768, 2304]⟩
abbrev S1x2304 : Shape := ⟨2, ![1, 2304]⟩
abbrev S768x48 : Shape := ⟨2, ![768, 48]⟩
abbrev S16x2304 : Shape := ⟨2, ![16, 2304]⟩
abbrev S48x2304 : Shape := ⟨2, ![48, 2304]⟩
abbrev S12800x2304 : Shape := ⟨2, ![12800, 2304]⟩
abbrev S256x768 : Shape := ⟨2, ![256, 768]⟩
abbrev S256x2304 : Shape := ⟨2, ![256, 2304]⟩
abbrev S256x48 : Shape := ⟨2, ![256, 48]⟩
abbrev S12608x2304 : Shape := ⟨2, ![12608, 2304]⟩
abbrev S64x197x2304 : Shape := ⟨3, ![64, 197, 2304]⟩

abbrev nBuf : Space → Nat
  | .hbm => 31
  | .vmem => 8
  | .smem => 0
  | _ => 0

abbrev bufTy : (tb : Table) → Fin (tcTables nBuf tb) → BufTy
  | .hbm, ⟨0, _⟩ => ⟨S64x197x768, .f32⟩
  | .hbm, ⟨1, _⟩ => ⟨S2304x768, .f32⟩
  | .hbm, ⟨2, _⟩ => ⟨S2304, .f32⟩
  | .hbm, ⟨3, _⟩ => ⟨S16x768, .f32⟩
  | .hbm, ⟨4, _⟩ => ⟨S768x16, .f32⟩
  | .hbm, ⟨5, _⟩ => ⟨S16x768, .f32⟩
  | .hbm, ⟨6, _⟩ => ⟨S768x16, .f32⟩
  | .hbm, ⟨7, _⟩ => ⟨S16x768, .f32⟩
  | .hbm, ⟨8, _⟩ => ⟨S768x16, .f32⟩
  | .hbm, ⟨9, _⟩ => ⟨S12608x768, .f32⟩
  | .hbm, ⟨10, _⟩ => ⟨S_, .i32⟩
  | .hbm, ⟨11, _⟩ => ⟨S_, .f32⟩
  | .hbm, ⟨12, _⟩ => ⟨S12800x768, .f32⟩
  | .hbm, ⟨13, _⟩ => ⟨S768x2304, .f32⟩
  | .hbm, ⟨14, _⟩ => ⟨S1x2304, .f32⟩
  | .hbm, ⟨15, _⟩ => ⟨S768x16, .f32⟩
  | .hbm, ⟨16, _⟩ => ⟨S768x16, .f32⟩
  | .hbm, ⟨17, _⟩ => ⟨S768x16, .f32⟩
  | .hbm, ⟨18, _⟩ => ⟨S768x48, .f32⟩
  | .hbm, ⟨19, _⟩ => ⟨S_, .f32⟩
  | .hbm, ⟨20, _⟩ => ⟨S16x768, .f32⟩
  | .hbm, ⟨21, _⟩ => ⟨S16x768, .f32⟩
  | .hbm, ⟨22, _⟩ => ⟨S16x2304, .f32⟩
  | .hbm, ⟨23, _⟩ => ⟨S16x768, .f32⟩
  | .hbm, ⟨24, _⟩ => ⟨S16x2304, .f32⟩
  | .hbm, ⟨25, _⟩ => ⟨S16x768, .f32⟩
  | .hbm, ⟨26, _⟩ => ⟨S16x2304, .f32⟩
  | .hbm, ⟨27, _⟩ => ⟨S48x2304, .f32⟩
  | .hbm, ⟨28, _⟩ => ⟨S12800x2304, .f32⟩
  | .hbm, ⟨29, _⟩ => ⟨S12608x2304, .f32⟩
  | .hbm, ⟨30, _⟩ => ⟨S64x197x2304, .f32⟩
  | .local _ .vmem, ⟨0, _⟩ => ⟨S256x768, .f32⟩
  | .local _ .vmem, ⟨1, _⟩ => ⟨S256x768, .f32⟩
  | .local _ .vmem, ⟨2, _⟩ => ⟨S768x2304, .f32⟩
  | .local _ .vmem, ⟨3, _⟩ => ⟨S1x2304, .f32⟩
  | .local _ .vmem, ⟨4, _⟩ => ⟨S768x48, .f32⟩
  | .local _ .vmem, ⟨5, _⟩ => ⟨S48x2304, .f32⟩
  | .local _ .vmem, ⟨6, _⟩ => ⟨S256x2304, .f32⟩
  | .local _ .vmem, ⟨7, _⟩ => ⟨S256x2304, .f32⟩
  | _, _ => ⟨S64x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x197x768_S12608x768 : S64x197x768.ShapeCasts S12608x768
  pads_S12608x768_S12800x768_01920_000 : S12608x768.Pads (![0, 0] : Fin 2 → Nat) ![192, 0] ![0, 0] S12800x768
  h_S_ : 0 < S_.numel
  transposes_S2304x768_S768x2304_1_0 : S2304x768.Transposes [1, 0] S768x2304
  shapeCasts_S2304_S1x2304 : S2304.ShapeCasts S1x2304
  transposes_S16x768_S768x16_1_0 : S16x768.Transposes [1, 0] S768x16
  concatenates_S768x16_S768x16_S768x16_S768x48_d1 : Shape.Concatenates [S768x16, S768x16, S768x16] S768x48 1
  bcast_S_S16x768 : S_.BroadcastsInDim S16x768 (![] : Fin 0 → Fin S16x768.rank)
  transposes_S768x16_S16x768_1_0 : S768x16.Transposes [1, 0] S16x768
  concatenates_S16x768_S16x768_S16x768_S16x2304_d1 : Shape.Concatenates [S16x768, S16x768, S16x768] S16x2304 1
  concatenates_S16x2304_S16x2304_S16x2304_S48x2304_d0 : Shape.Concatenates [S16x2304, S16x2304, S16x2304] S48x2304 0
  inb_S256x768_S256x768_0_0 : ∀ a, (![0, 0] : Fin 2 → Nat) a + S256x768.size a ≤ S256x768.size a
  h_S256x768 : 0 < S256x768.numel
  shapeCasts_S256x768_S256x768 : S256x768.ShapeCasts S256x768
  bitsLt_bf16_f32 : FTy.bits .bf16 < FTy.bits .f32
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S768x48_S768x48_0_0 : ∀ a, (![0, 0] : Fin 2 → Nat) a + S768x48.size a ≤ S768x48.size a
  h_S768x48 : 0 < S768x48.numel
  shapeCasts_S768x48_S768x48 : S768x48.ShapeCasts S768x48
  inb_S48x2304_S48x2304_0_0 : ∀ a, (![0, 0] : Fin 2 → Nat) a + S48x2304.size a ≤ S48x2304.size a
  h_S48x2304 : 0 < S48x2304.numel
  shapeCasts_S48x2304_S48x2304 : S48x2304.ShapeCasts S48x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S256x2304 : S1x2304.Broadcasts S256x2304
  inb_S256x2304_S256x2304_0_0 : ∀ a, (![0, 0] : Fin 2 → Nat) a + S256x2304.size a ≤ S256x2304.size a
  h_S256x2304 : 0 < S256x2304.numel
  slices_S12800x2304_S12608x2304_0_0 : S12800x2304.Slices ![0, 0] S12608x2304
  shapeCasts_S12608x2304_S64x197x2304 : S12608x2304.ShapeCasts S64x197x2304
  dot_S256x768_S768x2304_S256x2304_1_0_0_1_n_n_wf : DotDims.WF S256x768 S768x2304 S256x2304 [1] [0] [0] [1] [] []
  dot_S256x768_S768x48_S256x48_1_0_0_1_n_n_wf : DotDims.WF S256x768 S768x48 S256x48 [1] [0] [0] [1] [] []
  dot_S256x48_S48x2304_S256x2304_1_0_0_1_n_n_wf : DotDims.WF S256x48 S48x2304 S256x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S12800x768.size a
  hwx0_0 : ∀ i : grid0.Coords, EltTy.bits .f32 = 32 ∨ (Rect.block (s := S12800x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .f32 = 32 ∨ (Rect.block (s := S768x2304) S768x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x48.size a ≤ S768x48.size a
  hwx0_3 : ∀ i : grid0.Coords, EltTy.bits .f32 = 32 ∨ (Rect.block (s := S768x48) S768x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x2304.size a ≤ S48x2304.size a
  hwx0_4 : ∀ i : grid0.Coords, EltTy.bits .f32 = 32 ∨ (Rect.block (s := S48x2304) S48x2304.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2304.size a ≤ S12800x2304.size a
  hwx0_5 : ∀ i : grid0.Coords, EltTy.bits .f32 = 32 ∨ (Rect.block (s := S12800x2304) S256x2304.size (cc0_transform_5 i) (hinb0_5 i)).WholeWords (EltTy.packing .f32)

variable [Facts₀]

def dot_S256x768_S768x2304_S256x2304_1_0_0_1_n_n : DotDims S256x768 S768x2304 S256x2304 where
  lhsContracting := [1]
  rhsContracting := [0]
  lhsNonContracting := [0]
  rhsNonContracting := [1]
  lhsBatch := []
  rhsBatch := []
  wf := dot_S256x768_S768x2304_S256x2304_1_0_0_1_n_n_wf
def dot_S256x768_S768x48_S256x48_1_0_0_1_n_n : DotDims S256x768 S768x48 S256x48 where
  lhsContracting := [1]
  rhsContracting := [0]
  lhsNonContracting := [0]
  rhsNonContracting := [1]
  lhsBatch := []
  rhsBatch := []
  wf := dot_S256x768_S768x48_S256x48_1_0_0_1_n_n_wf
def dot_S256x48_S48x2304_S256x2304_1_0_0_1_n_n : DotDims S256x48 S48x2304 S256x2304 where
  lhsContracting := [1]
  rhsContracting := [0]
  lhsNonContracting := [0]
  rhsNonContracting := [1]
  lhsBatch := []
  rhsBatch := []
  wf := dot_S256x48_S48x2304_S256x2304_1_0_0_1_n_n_wf

abbrev win0_0 : Pipeline.Window sig grid0 :=
  Pipeline.Window.ofSpec (Memref.whole main_v1) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S768x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S48x2304.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S256x2304.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x197x768 : Shape := ⟨3, ![64, 197, 768]⟩
abbrev S2304x768 : Shape := ⟨2, ![2304, 768]⟩
abbrev S2304 : Shape := ⟨1, ![2304]⟩
abbrev S16x768 : Shape := ⟨2, ![16, 768]⟩
abbrev S768x16 : Shape := ⟨2, ![768, 16]⟩
abbrev S64x197x2304 : Shape := ⟨3, ![64, 197, 2304]⟩
abbrev S1x1x2304 : Shape := ⟨3, ![1, 1, 2304]⟩
abbrev S64x197x16 : Shape := ⟨3, ![64, 197, 16]⟩

abbrev nBuf : Space → Nat
  | .hbm => 21
  | .vmem => 0
  | .smem => 0
  | _ => 0

abbrev bufTy : (tb : Table) → Fin (tcTables nBuf tb) → BufTy
  | .hbm, ⟨0, _⟩ => ⟨S64x197x768, .f32⟩
  | .hbm, ⟨1, _⟩ => ⟨S2304x768, .f32⟩
  | .hbm, ⟨2, _⟩ => ⟨S2304, .f32⟩
  | .hbm, ⟨3, _⟩ => ⟨S16x768, .f32⟩
  | .hbm, ⟨4, _⟩ => ⟨S768x16, .f32⟩
  | .hbm, ⟨5, _⟩ => ⟨S16x768, .f32⟩
  | .hbm, ⟨6, _⟩ => ⟨S768x16, .f32⟩
  | .hbm, ⟨7, _⟩ => ⟨S16x768, .f32⟩
  | .hbm, ⟨8, _⟩ => ⟨S768x16, .f32⟩
  | .hbm, ⟨9, _⟩ => ⟨S64x197x2304, .f32⟩
  | .hbm, ⟨10, _⟩ => ⟨S1x1x2304, .f32⟩
  | .hbm, ⟨11, _⟩ => ⟨S64x197x2304, .f32⟩
  | .hbm, ⟨12, _⟩ => ⟨S64x197x2304, .f32⟩
  | .hbm, ⟨13, _⟩ => ⟨S64x197x16, .f32⟩
  | .hbm, ⟨14, _⟩ => ⟨S64x197x768, .f32⟩
  | .hbm, ⟨15, _⟩ => ⟨S64x197x16, .f32⟩
  | .hbm, ⟨16, _⟩ => ⟨S64x197x768, .f32⟩
  | .hbm, ⟨17, _⟩ => ⟨S64x197x16, .f32⟩
  | .hbm, ⟨18, _⟩ => ⟨S64x197x768, .f32⟩
  | .hbm, ⟨19, _⟩ => ⟨S64x197x2304, .f32⟩
  | .hbm, ⟨20, _⟩ => ⟨S64x197x2304, .f32⟩
  | _, _ => ⟨S64x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S64x197x2304_0_1_2 : S1x1x2304.BroadcastsInDim S64x197x2304 (![0, 1, 2] : Fin 3 → Fin S64x197x2304.rank)
  concatenates_S64x197x768_S64x197x768_S64x197x768_S64x197x2304_d2 : Shape.Concatenates [S64x197x768, S64x197x768, S64x197x768] S64x197x2304 2
  dot_S64x197x768_S2304x768_S64x197x2304_2_1_01_0_n_n_wf : DotDims.WF S64x197x768 S2304x768 S64x197x2304 [2] [1] [0, 1] [0] [] []
  dot_S64x197x768_S16x768_S64x197x16_2_1_01_0_n_n_wf : DotDims.WF S64x197x768 S16x768 S64x197x16 [2] [1] [0, 1] [0] [] []
  dot_S64x197x16_S768x16_S64x197x768_2_1_01_0_n_n_wf : DotDims.WF S64x197x16 S768x16 S64x197x768 [2] [1] [0, 1] [0] [] []

variable [Facts₀]

def dot_S64x197x768_S2304x768_S64x197x2304_2_1_01_0_n_n : DotDims S64x197x768 S2304x768 S64x197x2304 where
  lhsContracting := [2]
  rhsContracting := [1]
  lhsNonContracting := [0, 1]
  rhsNonContracting := [0]
  lhsBatch := []
  rhsBatch := []
  wf := dot_S64x197x768_S2304x768_S64x197x2304_2_1_01_0_n_n_wf
def dot_S64x197x768_S16x768_S64x197x16_2_1_01_0_n_n : DotDims S64x197x768 S16x768 S64x197x16 where
  lhsContracting := [2]
  rhsContracting := [1]
  lhsNonContracting := [0, 1]
  rhsNonContracting := [0]
  lhsBatch := []
  rhsBatch := []
  wf := dot_S64x197x768_S16x768_S64x197x16_2_1_01_0_n_n_wf
def dot_S64x197x16_S768x16_S64x197x768_2_1_01_0_n_n : DotDims S64x197x16 S768x16 S64x197x768 where
  lhsContracting := [2]
  rhsContracting := [1]
  lhsNonContracting := [0, 1]
  rhsNonContracting := [0]
  lhsBatch := []
  rhsBatch := []
  wf := dot_S64x197x16_S768x16_S64x197x768_2_1_01_0_n_n_wf

class Facts : Prop extends Facts₀ where

variable [Facts]
-- ==== Proof.BitsEntry.lean ====
/-
  The buffer contents of core c when the kernel region is entered: the launch contents after the host operations that
  come before the region — the reshape of the tokens and the padding to a whole number of row tiles, the transposes,
  and the concatenations that pack the adapter matrices.
-/
import proofs.«170197_j63608465654579_1_alg».proof.Proof.Gen.Kernel.Launch

noncomputable section

namespace Cert.Kernel.Entry

open Cert.Kernel Cert.Kernel.Gen
open Idealize.ShloMosaic Idealize.ShloMosaic.TcCoe Idealize.SL.Sem

variable {F : FTy → Type} [FloatOps F]

/-- Core c's TensorCore buffer contents at the region's entry, as a valuation. -/
abbrev V0 (m : (ℓ : Loc nD τ sig) → Buf (Elt F) ℓ) (c : Dev nD) : Valuation τ sig (Elt F) :=
  StableHlo.after (List.flatten [hostOps0, hostOps0_1, hostOps0_2]) (fun b => m (c, b))

/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

end Cert.Kernel.Entry

end
-- ==== Proof.BitsFrame.lean ====
/-
  The frame of the kernel program, at any float instance: @main runs to the end on every core, nothing faults, and
  the nine argument arrays end as they were launched.

  @main is three stretches of host operations (the reshape and padding of the tokens, the transposes, the
  concatenations packing the adapter matrices), ONE kernel region on a grid of 50 row tiles, and two more host
  operations (the slice that drops the padding rows and the reshape back to [64, 197, 2304]). The region stages five input
  arrays and one output array. At grid point t the body loads the 256 × 768 tile of padded tokens and the four
  whole matrices (dense weights transposed, bias row, packed down-projections, packed up-projections), and stores ONE
  whole 256 × 2304 tile of the output; it also loads the output's staging buffer once before storing and does not use
  the value, so all it needs of that buffer is that it holds something.

  Proof data: each input window's buffer holds its block of the array as the region found it, at every point (the
  token tile is fetched anew at each point, the four matrices once); the output's buffer holds, after the body, the
  body's stored value of the five input blocks. Nothing is owed, every share is full, and the region invariant is the
  scoped rest and the generator register, which the body never touches.
-/
import proofs.«170197_j63608465654579_1_alg».proof.Proof.BitsEntry
import proofs.«170197_j63608465654579_1_alg».proof.Proof.Gen.Kernel.Skeleton
import proofs.«170197_j63608465654579_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the two host operations after it, entered at the contents the three
    stretches before it leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch the region's arrays and the buffers that bypass it only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the region's six arrays: the slice writes its own result and the reshape the program's result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-- The buffers the host operations before the region write. -/
def writtenBefore : List (Ref sig .tc) :=
  [main_v0, main_c, main_call0_v0, main_v1, main_v2, main_v3, main_v4, main_v5, main_v6, main_v7, main_cst, main_v8,
    main_v9, main_v10, main_v11, main_v12, main_v13, main_v14, main_v15]

/-- A buffer none of them writes is found by the region as launched. -/
theorem V_of_unwritten (c : Dev nD) (b : Ref sig .tc) (hb : ∀ y ∈ writtenBefore, b ≠ y) :
    V m c b = m ((c : Thread nD τ).loc b) :=
  StableHlo.after_of_forall_not_mem (b := Proc.devRef .tc b) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, StableHlo.nary_writes, Finset.mem_singleton]
    repeat' apply And.intro
    all_goals exact StableHlo.devRef_ne_of_ne (hb _ (by simp [writtenBefore]))))

/-- What the whole program leaves at a buffer that neither stretch of host operations writes and that is no array of
    the region: the launch contents. -/
theorem W_of_unwritten (dats : (p : Fin _) → (c : Dev nD) → Dat τ (Elt F) Unit ℕ (UR sig nD τ) ℕ (cfgs p) c) (c : Dev nD)
    (b : Ref sig .tc) (hb : ∀ y ∈ writtenBefore, b ≠ y) (hb17 : b ≠ main_v17) (hb18 : b ≠ main_v18)
    (harr : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne hb17, StableHlo.devRef_ne_of_ne hb18⟩)),
    Pipeline.withArrays_of_ne _ c (V0 m c) _ b harr]
  exact V_of_unwritten m c b hb

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its block
    index has not moved since the point before), for any proof data whose array is the region-entry contents and whose
    body leaves the block in place. One statement per input window: tokens, dense weights, bias row, packed
    down-projections, packed up-projections. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rTok : Rect S256x768 := Rect.unit (s := S256x768) ![0, 0] S256x768.size inb_S256x768_S256x768_0_0
abbrev rW : Rect S768x2304 := Rect.unit (s := S768x2304) ![0, 0] S768x2304.size inb_S768x2304_S768x2304_0_0
abbrev rBias : Rect S1x2304 := Rect.unit (s := S1x2304) ![0, 0] S1x2304.size inb_S1x2304_S1x2304_0_0
abbrev rDown : Rect S768x48 := Rect.unit (s := S768x48) ![0, 0] S768x48.size inb_S768x48_S768x48_0_0
abbrev rUp : Rect S48x2304 := Rect.unit (s := S48x2304) ![0, 0] S48x2304.size inb_S48x2304_S48x2304_0_0
abbrev rOut : Rect S256x2304 := Rect.unit (s := S256x2304) ![0, 0] S256x2304.size inb_S256x2304_S256x2304_0_0

/-- The output tile after the body, from the five input blocks (in window order: tokens, dense weights, bias row,
    packed down-projections, packed up-projections): its one store, of the body's value, over the whole tile. -/
def outTile (x0 : Vec F S256x768 .f32) (x1 : Vec F S768x2304 .f32) (x2 : Vec F S1x2304 .f32) (x3 : Vec F S768x48 .f32)
    (x4 : Vec F S48x2304 .f32) : Vec F S256x2304 .f32 :=
  View.canon [⟨rOut, k0_pay1 (View.ld x0 rTok) (View.ld x1 rW) (View.ld x3 rDown) (View.ld x4 rUp) (View.ld x2 rBias)⟩]

/-- The one store covers the tile. -/
theorem coverOut (p0 : Vec F S256x2304 .f32) (y : S256x2304.Idx) :
    ∃ pc ∈ ([⟨rOut, p0⟩] : List (View.Piece (Elt F) S256x2304 .f32)), y ∈ pc.1.set :=
  View.cover_of_tiled [⟨rOut, p0⟩] S256x2304.size (by rfl) y

/-! ## The body's triple -/

set_option maxHeartbeats 1000000 in
/-- The body on whole staging memrefs, the inputs' at contents x0 … x4 and the output's at anything, runs to the
    continuation holding the inputs' as they were and the output's at the tile computed from them. -/
theorem sound_kernel (c : Dev nD) (E : Set ℕ) (i : grid0.Coords)
    (arg1 : Memref sig .tc .vmem S256x768 .f32) (harg1 : arg1.IsWhole) (arg2 : Memref sig .tc .vmem S768x2304 .f32) (harg2 : arg2.IsWhole)
    (arg3 : Memref sig .tc .vmem S1x2304 .f32) (harg3 : arg3.IsWhole) (arg4 : Memref sig .tc .vmem S768x48 .f32) (harg4 : arg4.IsWhole)
    (arg5 : Memref sig .tc .vmem S48x2304 .f32) (harg5 : arg5.IsWhole) (arg6 : Memref sig .tc .vmem S256x2304 .f32) (harg6 : arg6.IsWhole)
    (x0 : Vec F S256x768 .f32) (x1 : Vec F S768x2304 .f32) (x2 : Vec F S1x2304 .f32) (x3 : Vec F S768x48 .f32) (x4 : Vec F S48x2304 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outTile x0 x1 x2 x3 x4)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

/-! ## The region's proof data -/

/-- The proof data of the region on core c: the arrays as the region finds them; after the body at point t each
    input's buffer at its block and the output's at the tile computed from the input blocks; the invariant the scoped
    rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outTile (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has each array of the
    region at what the proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument array is written by no host operation and is no array of the region: it ends as launched. -/
theorem arg_kept (r : PUnit × MemSt nD τ sig (Elt F))
    (h : Pipeline.FramePost cfgs (dats m) 0 (Pipeline.afterTail₀ cfgs (dats m) 0 (V0 m) [hostOps1]) r) (c : Dev nD)
    (b : Ref sig .tc) (hs : b.isScoped = false) (harr : ∀ w, Pipeline.arrRef spec0 w ≠ b)
    (hb : ∀ y ∈ writtenBefore, b ≠ y) (hb17 : b ≠ main_v17) (hb18 : b ≠ main_v18) :
    r.2.mem ((c.tc : Thread nD τ).loc b) = m ((c.tc : Thread nD τ).loc b) :=
  ((h c).2 b (Pipeline.mem_restRefs_of b hs harr)).trans (W_of_unwritten m (dats m) c b hb hb17 hb18 harr)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨arg_kept m r h c main_arg0 (by decide) (by decide) (by decide) (by decide) (by decide),
     arg_kept m r h c main_arg1 (by decide) (by decide) (by decide) (by decide) (by decide),
     arg_kept m r h c main_arg2 (by decide) (by decide) (by decide) (by decide) (by decide),
     arg_kept m r h c main_arg3 (by decide) (by decide) (by decide) (by decide) (by decide),
     arg_kept m r h c main_arg4 (by decide) (by decide) (by decide) (by decide) (by decide),
     arg_kept m r h c main_arg5 (by decide) (by decide) (by decide) (by decide) (by decide),
     arg_kept m r h c main_arg6 (by decide) (by decide) (by decide) (by decide) (by decide),
     arg_kept m r h c main_arg7 (by decide) (by decide) (by decide) (by decide) (by decide),
     arg_kept m r h c main_arg8 (by decide) (by decide) (by decide) (by decide) (by decide)⟩) (run_main m ρ)

end Cert.Kernel.Fr

end
-- ==== Proof.IdealEntry.lean ====
/-
  The buffer contents of core c when the kernel region is entered: the launch contents after the host operations that
  come before the region — the reshape of the tokens and the padding to a whole number of row tiles, the transposes,
  and the concatenations that pack the adapter matrices.
-/
import proofs.«170197_j63608465654579_1_alg».proof.Proof.Gen.KernelIdeal.Launch

noncomputable section

namespace Cert.KernelIdeal.Entry

open Cert.KernelIdeal Cert.KernelIdeal.Gen
open Idealize.ShloMosaic Idealize.ShloMosaic.TcCoe Idealize.SL.Sem

variable {F : FTy → Type} [FloatOps F]

/-- Core c's TensorCore buffer contents at the region's entry, as a valuation. -/
abbrev V0 (m : (ℓ : Loc nD τ sig) → Buf (Elt F) ℓ) (c : Dev nD) : Valuation τ sig (Elt F) :=
  StableHlo.after (List.flatten [hostOps0, hostOps0_1, hostOps0_2]) (fun b => m (c, b))

/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

end Cert.KernelIdeal.Entry

end
-- ==== Proof.IdealFrame.lean ====
/-
  The frame of the kernel program, at any float instance: @main runs to the end on every core, nothing faults, and
  the nine argument arrays end as they were launched.

  @main is three stretches of host operations (the reshape and padding of the tokens, the transposes, the
  concatenations packing the adapter matrices), ONE kernel region on a grid of 50 row tiles, and two more host
  operations (the slice that drops the padding rows and the reshape back to [64, 197, 2304]). The region stages five input
  arrays and one output array. At grid point t the body loads the 256 × 768 tile of padded tokens and the four
  whole matrices (dense weights transposed, bias row, packed down-projections, packed up-projections), and stores ONE
  whole 256 × 2304 tile of the output; it also loads the output's staging buffer once before storing and does not use
  the value, so all it needs of that buffer is that it holds something.

  Proof data: each input window's buffer holds its block of the array as the region found it, at every point (the
  token tile is fetched anew at each point, the four matrices once); the output's buffer holds, after the body, the
  body's stored value of the five input blocks. Nothing is owed, every share is full, and the region invariant is the
  scoped rest and the generator register, which the body never touches.
-/
import proofs.«170197_j63608465654579_1_alg».proof.Proof.IdealEntry
import proofs.«170197_j63608465654579_1_alg».proof.Proof.Gen.KernelIdeal.Skeleton
import proofs.«170197_j63608465654579_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the two host operations after it, entered at the contents the three
    stretches before it leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operations after the region touch the region's arrays and the buffers that bypass it only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the region's six arrays: the slice writes its own result and the reshape the program's result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-- The buffers the host operations before the region write. -/
def writtenBefore : List (Ref sig .tc) :=
  [main_v0, main_c, main_call0_v0, main_v1, main_v2, main_v3, main_v4, main_v5, main_v6, main_v7, main_cst, main_v8,
    main_v9, main_v10, main_v11, main_v12, main_v13, main_v14, main_v15]

/-- A buffer none of them writes is found by the region as launched. -/
theorem V_of_unwritten (c : Dev nD) (b : Ref sig .tc) (hb : ∀ y ∈ writtenBefore, b ≠ y) :
    V m c b = m ((c : Thread nD τ).loc b) :=
  StableHlo.after_of_forall_not_mem (b := Proc.devRef .tc b) _ _ (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes,
      StableHlo.reshape_writes, StableHlo.nary_writes, Finset.mem_singleton]
    repeat' apply And.intro
    all_goals exact StableHlo.devRef_ne_of_ne (hb _ (by simp [writtenBefore]))))

/-- What the whole program leaves at a buffer that neither stretch of host operations writes and that is no array of
    the region: the launch contents. -/
theorem W_of_unwritten (dats : (p : Fin _) → (c : Dev nD) → Dat τ (Elt F) Unit ℕ (UR sig nD τ) ℕ (cfgs p) c) (c : Dev nD)
    (b : Ref sig .tc) (hb : ∀ y ∈ writtenBefore, b ≠ y) (hb17 : b ≠ main_v17) (hb18 : b ≠ main_v18)
    (harr : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne hb17, StableHlo.devRef_ne_of_ne hb18⟩)),
    Pipeline.withArrays_of_ne _ c (V0 m c) _ b harr]
  exact V_of_unwritten m c b hb

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its block
    index has not moved since the point before), for any proof data whose array is the region-entry contents and whose
    body leaves the block in place. One statement per input window: tokens, dense weights, bias row, packed
    down-projections, packed up-projections. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rTok : Rect S256x768 := Rect.unit (s := S256x768) ![0, 0] S256x768.size inb_S256x768_S256x768_0_0
abbrev rW : Rect S768x2304 := Rect.unit (s := S768x2304) ![0, 0] S768x2304.size inb_S768x2304_S768x2304_0_0
abbrev rBias : Rect S1x2304 := Rect.unit (s := S1x2304) ![0, 0] S1x2304.size inb_S1x2304_S1x2304_0_0
abbrev rDown : Rect S768x48 := Rect.unit (s := S768x48) ![0, 0] S768x48.size inb_S768x48_S768x48_0_0
abbrev rUp : Rect S48x2304 := Rect.unit (s := S48x2304) ![0, 0] S48x2304.size inb_S48x2304_S48x2304_0_0
abbrev rOut : Rect S256x2304 := Rect.unit (s := S256x2304) ![0, 0] S256x2304.size inb_S256x2304_S256x2304_0_0

/-- The output tile after the body, from the five input blocks (in window order: tokens, dense weights, bias row,
    packed down-projections, packed up-projections): its one store, of the body's value, over the whole tile. -/
def outTile (x0 : Vec F S256x768 .f32) (x1 : Vec F S768x2304 .f32) (x2 : Vec F S1x2304 .f32) (x3 : Vec F S768x48 .f32)
    (x4 : Vec F S48x2304 .f32) : Vec F S256x2304 .f32 :=
  View.canon [⟨rOut, k0_pay1 (View.ld x0 rTok) (View.ld x1 rW) (View.ld x3 rDown) (View.ld x4 rUp) (View.ld x2 rBias)⟩]

/-- The one store covers the tile. -/
theorem coverOut (p0 : Vec F S256x2304 .f32) (y : S256x2304.Idx) :
    ∃ pc ∈ ([⟨rOut, p0⟩] : List (View.Piece (Elt F) S256x2304 .f32)), y ∈ pc.1.set :=
  View.cover_of_tiled [⟨rOut, p0⟩] S256x2304.size (by rfl) y

/-! ## The body's triple -/

set_option maxHeartbeats 1000000 in
/-- The body on whole staging memrefs, the inputs' at contents x0 … x4 and the output's at anything, runs to the
    continuation holding the inputs' as they were and the output's at the tile computed from them. -/
theorem sound_kernel (c : Dev nD) (E : Set ℕ) (i : grid0.Coords)
    (arg1 : Memref sig .tc .vmem S256x768 .f32) (harg1 : arg1.IsWhole) (arg2 : Memref sig .tc .vmem S768x2304 .f32) (harg2 : arg2.IsWhole)
    (arg3 : Memref sig .tc .vmem S1x2304 .f32) (harg3 : arg3.IsWhole) (arg4 : Memref sig .tc .vmem S768x48 .f32) (harg4 : arg4.IsWhole)
    (arg5 : Memref sig .tc .vmem S48x2304 .f32) (harg5 : arg5.IsWhole) (arg6 : Memref sig .tc .vmem S256x2304 .f32) (harg6 : arg6.IsWhole)
    (x0 : Vec F S256x768 .f32) (x1 : Vec F S768x2304 .f32) (x2 : Vec F S1x2304 .f32) (x3 : Vec F S768x48 .f32) (x4 : Vec F S48x2304 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outTile x0 x1 x2 x3 x4)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverOut _)

/-! ## The region's proof data -/

/-- The proof data of the region on core c: the arrays as the region finds them; after the body at point t each
    input's buffer at its block and the output's at the tile computed from the input blocks; the invariant the scoped
    rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outTile (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has each array of the
    region at what the proof data computes and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument array is written by no host operation and is no array of the region: it ends as launched. -/
theorem arg_kept (r : PUnit × MemSt nD τ sig (Elt F))
    (h : Pipeline.FramePost cfgs (dats m) 0 (Pipeline.afterTail₀ cfgs (dats m) 0 (V0 m) [hostOps1]) r) (c : Dev nD)
    (b : Ref sig .tc) (hs : b.isScoped = false) (harr : ∀ w, Pipeline.arrRef spec0 w ≠ b)
    (hb : ∀ y ∈ writtenBefore, b ≠ y) (hb17 : b ≠ main_v17) (hb18 : b ≠ main_v18) :
    r.2.mem ((c.tc : Thread nD τ).loc b) = m ((c.tc : Thread nD τ).loc b) :=
  ((h c).2 b (Pipeline.mem_restRefs_of b hs harr)).trans (W_of_unwritten m (dats m) c b hb hb17 hb18 harr)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨arg_kept m r h c main_arg0 (by decide) (by decide) (by decide) (by decide) (by decide),
     arg_kept m r h c main_arg1 (by decide) (by decide) (by decide) (by decide) (by decide),
     arg_kept m r h c main_arg2 (by decide) (by decide) (by decide) (by decide) (by decide),
     arg_kept m r h c main_arg3 (by decide) (by decide) (by decide) (by decide) (by decide),
     arg_kept m r h c main_arg4 (by decide) (by decide) (by decide) (by decide) (by decide),
     arg_kept m r h c main_arg5 (by decide) (by decide) (by decide) (by decide) (by decide),
     arg_kept m r h c main_arg6 (by decide) (by decide) (by decide) (by decide) (by decide),
     arg_kept m r h c main_arg7 (by decide) (by decide) (by decide) (by decide) (by decide),
     arg_kept m r h c main_arg8 (by decide) (by decide) (by decide) (by decide) (by decide)⟩) (run_main m ρ)

end Cert.KernelIdeal.Fr

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.Spec.lean ====
/-
  The mathematics both programs compute, with no program in sight.

  Tokens x[b, n, .] (768 features) go through a dense projection to 2304 outputs plus a bias, and the output axis is
  three sections of 768 (query, key, value), each of which also receives a rank-16 correction: the token is first
  projected DOWN to 16 numbers by that section's a matrix and then UP to 768 by that section's u matrix.

    result[b, n, o] = (∑ₖ x[b,n,k] · w[o,k] + bias[o]) + ∑ᵣ (∑ₖ x[b,n,k] · a_s[r,k]) · u_s[c,r],   o = 768·s + c.

  The fused arrangement packs the three a matrices side by side into one 768 × 48 matrix and the three u matrices on
  the diagonal of a 48 × 2304 matrix that is zero elsewhere; then the correction is ONE product through 48 numbers,

    ∑ⱼ (∑ₖ x[b,n,k] · aP[k,j]) · uP[j,o],   j = 16·s' + r,

  and only the block s' = s survives: every other term is a number times a zero entry of uP, and on the extended
  reals t · 0 = 0 whatever t is. The two arrangements then differ by the order of three summands, and addition on
  the extended reals is commutative and associative. No distributivity and no cancelling is used, so no finiteness.
-/
import Idealize.ShloMosaic.PureOps.Ideal
import Idealize.ShloMosaic.Lib.ValueIdx
import proofs.«170197_j63608465654579_1_alg».proof.Proof.LibSumBlocks

noncomputable section

open scoped BigOperators

namespace Cert.LoraSpec

open Idealize.ShloMosaic Idealize.ShloMosaic.ValueIdx

abbrev Tokens := (⟨3, ![64, 197, 768]⟩ : Shape).Idx → EReal
abbrev Dense := (⟨2, ![2304, 768]⟩ : Shape).Idx → EReal
abbrev Bias := (⟨1, ![2304]⟩ : Shape).Idx → EReal
abbrev Down := (⟨2, ![16, 768]⟩ : Shape).Idx → EReal
abbrev Up := (⟨2, ![768, 16]⟩ : Shape).Idx → EReal
abbrev Result := (⟨3, ![64, 197, 2304]⟩ : Shape).Idx → EReal
abbrev DenseT := (⟨2, ![768, 2304]⟩ : Shape).Idx → EReal
abbrev BiasRow := (⟨2, ![1, 2304]⟩ : Shape).Idx → EReal
abbrev DownPacked := (⟨2, ![768, 48]⟩ : Shape).Idx → EReal
abbrev UpPacked := (⟨2, ![48, 2304]⟩ : Shape).Idx → EReal

/-- One of three things, by section: query, key, value. -/
def pick {α : Sort _} (s : Fin 3) (q k v : α) : α :=
  match s with
  | ⟨0, _⟩ => q
  | ⟨1, _⟩ => k
  | ⟨2, _⟩ => v

/-- Entry r of section s among the 48 packed rank coordinates. -/
def j48 (s : Fin 3) (r : Fin 16) : Fin 48 := ⟨16 * s.val + r.val, Cert.LibSumBlocks.block_lt rfl s r⟩
/-- Column c of section s among the 2304 outputs. -/
def o2304 (s : Fin 3) (c : Fin 768) : Fin 2304 := ⟨768 * s.val + c.val, Cert.LibSumBlocks.block_lt rfl s c⟩
/-- The section an output column lies in, and its column inside the section. -/
def sec (o : Fin 2304) : Fin 3 := ⟨o.val / 768, by have := o.isLt; omega⟩
def off (o : Fin 2304) : Fin 768 := ⟨o.val % 768, Nat.mod_lt _ (by decide)⟩

theorem o2304_sec_off (o : Fin 2304) : o2304 (sec o) (off o) = o :=
  Fin.ext (by show 768 * (o.val / 768) + o.val % 768 = o.val; exact Nat.div_add_mod _ _)

/-- The dense projection of token (b, n) at output o. -/
def dense (x : Tokens) (w : Dense) (b : Fin 64) (n : Fin 197) (o : Fin 2304) : EReal :=
  ∑ k : Fin 768, x (ix3 b n k) * w (ix2 o k)

/-- Token (b, n) projected down to rank coordinate r by a. -/
def down (x : Tokens) (a : Down) (b : Fin 64) (n : Fin 197) (r : Fin 16) : EReal :=
  ∑ k : Fin 768, x (ix3 b n k) * a (ix2 r k)

/-- The rank-16 correction of one section at column c: down by a, up by u. -/
def lowRank (x : Tokens) (a : Down) (u : Up) (b : Fin 64) (n : Fin 197) (c : Fin 768) : EReal :=
  ∑ r : Fin 16, down x a b n r * u (ix2 c r)

/-- The correction at output o: its own section's pair of matrices, at its column inside the section. -/
def adapter (x : Tokens) (aq : Down) (uq : Up) (ak : Down) (uk : Up) (av : Down) (uv : Up)
    (b : Fin 64) (n : Fin 197) (o : Fin 2304) : EReal :=
  lowRank x (pick (sec o) aq ak av) (pick (sec o) uq uk uv) b n (off o)

/-- THE RESULT, element by element. -/
def G (x : Tokens) (w : Dense) (bias : Bias) (aq : Down) (uq : Up) (ak : Down) (uk : Up) (av : Down) (uv : Up) : Result :=
  fun i => (dense x w (i 0) (i 1) (i 2) + bias (ix1 (i 2))) + adapter x aq uq ak uk av uv (i 0) (i 1) (i 2)

/-- The fused arrangement over packed operands: dense product, plus the correction through all 48 rank coordinates at
    once, plus the bias row. -/
def fused (x : Tokens) (wT : DenseT) (brow : BiasRow) (aP : DownPacked) (uP : UpPacked)
    (b : Fin 64) (n : Fin 197) (o : Fin 2304) : EReal :=
  ((∑ k : Fin 768, x (ix3 b n k) * wT (ix2 k o))
    + ∑ j : Fin 48, (∑ k : Fin 768, x (ix3 b n k) * aP (ix2 k j)) * uP (ix2 j o)) + brow (ix2 0 o)

/-- The correction through the packed matrices is the section's own: the 48 coordinates are three blocks of 16, and the
    blocks of the other sections meet only zeros of uP. -/
theorem packed_correction (x : Tokens) (aq : Down) (uq : Up) (ak : Down) (uk : Up) (av : Down) (uv : Up)
    (aP : DownPacked) (uP : UpPacked)
    (haP : ∀ (k : Fin 768) (s : Fin 3) (r : Fin 16), aP (ix2 k (j48 s r)) = pick s aq ak av (ix2 r k))
    (hdiag : ∀ (s : Fin 3) (r : Fin 16) (c : Fin 768), uP (ix2 (j48 s r) (o2304 s c)) = pick s uq uk uv (ix2 c r))
    (hzero : ∀ (s s' : Fin 3) (r : Fin 16) (c : Fin 768), s ≠ s' → uP (ix2 (j48 s r) (o2304 s' c)) = 0)
    (b : Fin 64) (n : Fin 197) (o : Fin 2304) :
    (∑ j : Fin 48, (∑ k : Fin 768, x (ix3 b n k) * aP (ix2 k j)) * uP (ix2 j o)) = adapter x aq uq ak uk av uv b n o := by
  rw [← Cert.LibSumBlocks.sum_blocks (A := 3) (B := 16) rfl]
  unfold adapter lowRank down
  conv_lhs => rw [← o2304_sec_off o]
  rw [Finset.sum_eq_single (sec o)]
  · refine Finset.sum_congr rfl fun r _ => ?_
    show (∑ k : Fin 768, x (ix3 b n k) * aP (ix2 k (j48 (sec o) r))) * uP (ix2 (j48 (sec o) r) (o2304 (sec o) (off o))) = _
    rw [hdiag]
    refine congrArg (· * _) (Finset.sum_congr rfl fun k _ => ?_)
    rw [haP]
  · intro s _ hs
    refine Finset.sum_eq_zero fun r _ => ?_
    show _ * uP (ix2 (j48 s r) (o2304 (sec o) (off o))) = 0
    rw [hzero s (sec o) r (off o) hs, mul_zero]
  · intro h; exact absurd (Finset.mem_univ _) h

/-- THE LAW: the fused arrangement over correctly packed operands is the result. -/
theorem fused_eq_G (x : Tokens) (w : Dense) (bias : Bias) (aq : Down) (uq : Up) (ak : Down) (uk : Up) (av : Down) (uv : Up)
    (wT : DenseT) (brow : BiasRow) (aP : DownPacked) (uP : UpPacked)
    (hw : ∀ (k : Fin 768) (o : Fin 2304), wT (ix2 k o) = w (ix2 o k))
    (hb : ∀ o : Fin 2304, brow (ix2 0 o) = bias (ix1 o))
    (haP : ∀ (k : Fin 768) (s : Fin 3) (r : Fin 16), aP (ix2 k (j48 s r)) = pick s aq ak av (ix2 r k))
    (hdiag : ∀ (s : Fin 3) (r : Fin 16) (c : Fin 768), uP (ix2 (j48 s r) (o2304 s c)) = pick s uq uk uv (ix2 c r))
    (hzero : ∀ (s s' : Fin 3) (r : Fin 16) (c : Fin 768), s ≠ s' → uP (ix2 (j48 s r) (o2304 s' c)) = 0)
    (b : Fin 64) (n : Fin 197) (o : Fin 2304) :
    fused x wT brow aP uP b n o = G x w bias aq uq ak uk av uv (ix3 b n o) := by
  unfold fused
  rw [packed_correction x aq uq ak uk av uv aP uP haP hdiag hzero b n o, hb]
  show _ = (dense x w b n o + bias (ix1 o)) + adapter x aq uq ak uk av uv b n o
  unfold dense
  simp only [hw]
  exact add_right_comm _ _ _

end Cert.LoraSpec

end
-- ==== Proof.LibNary3.lean ====
import Idealize.ShloMosaic.Lib.StableHlo.Run

/-! # A three-operand host operation read at its own result

A host operation over a LITERAL family of three references (a concatenation of three arrays) leaves at its result
buffer its function applied to the three operands' contents, each read AT ITS OWN REFERENCE: the family of contents is
spelt operand by operand instead of as a function of the position, so that each operand's contents can in turn be
rewritten by the result lemma of the operation that wrote it. The library states this for four operands. -/

noncomputable section

namespace Cert.LibNary3

open Idealize.ShloMosaic Idealize.ShloMosaic.StableHlo

variable {τ : Topo} {sig : RefSig} {Val : EltTy → Type} {x a b y : Ref sig .tc}

/-- The result of a three-operand operation, its operands' contents listed one by one. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.UpPacked.lean ====
/-
  The packed up-projection matrix, as the host operations before the region build it and as it reads at an index.

  Each of the three up-projection matrices u_s (768 x 16) is transposed to 16 x 768 and laid, with two 16 x 768 blocks
  of zeros, side by side into a 16 x 2304 row-block whose s-th column-block is the transposed matrix; the three
  row-blocks are stacked into a 48 x 2304 matrix. So entry (16 s + r, 768 s' + c) is u_s[c, r] when s = s' and zero
  otherwise: the matrix is block diagonal.
-/
import proofs.«170197_j63608465654579_1_alg».proof.Proof.IdealEntry
import proofs.«170197_j63608465654579_1_alg».proof.Proof.Spec
import proofs.«170197_j63608465654579_1_alg».proof.Proof.LibNary3
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UpPacked

open Cert.KernelIdeal Cert.KernelIdeal.Gen Cert.KernelIdeal.Entry Cert.LoraSpec
open Idealize.ShloMosaic Idealize.ShloMosaic.TcCoe Idealize.SL.Sem Idealize.ShloMosaic.ValueIdx Idealize.ShloMosaic.StableHlo

variable {F : FTy → Type} [FloatOps F]
variable (m : (ℓ : Loc nD τ sig) → Buf (Elt F) ℓ) (c : Dev nD)

/-- A 16 x 768 block of zeros. -/
def zeroBlk : FVec F S16x768 .f32 := broadcastInDim S16x768 ![] Facts₀.bcast_S_S16x768 (constant S_ .f32 0x00000000#32)
/-- An up-projection matrix, transposed. -/
def upT (u : (⟨S768x16, .f32⟩ : BufTy).Contents (Elt F)) : FVec F S16x768 .f32 := transpose S16x768 [1, 0] u Facts₀.transposes_S768x16_S16x768_1_0

/-- The block-diagonal packing of the three transposed up-projections. -/
def packedU (uq uk uv : (⟨S768x16, .f32⟩ : BufTy).Contents (Elt F)) : FVec F S48x2304 .f32 :=
  concatenate S48x2304 0
    [⟨S16x2304, concatenate S16x2304 1 [⟨S16x768, upT uq⟩, ⟨S16x768, zeroBlk⟩, ⟨S16x768, zeroBlk⟩] Facts₀.concatenates_S16x768_S16x768_S16x768_S16x2304_d1⟩,
     ⟨S16x2304, concatenate S16x2304 1 [⟨S16x768, zeroBlk⟩, ⟨S16x768, upT uk⟩, ⟨S16x768, zeroBlk⟩] Facts₀.concatenates_S16x768_S16x768_S16x768_S16x2304_d1⟩,
     ⟨S16x2304, concatenate S16x2304 1 [⟨S16x768, zeroBlk⟩, ⟨S16x768, zeroBlk⟩, ⟨S16x768, upT uv⟩] Facts₀.concatenates_S16x768_S16x768_S16x768_S16x2304_d1⟩]
    Facts₀.concatenates_S16x2304_S16x2304_S16x2304_S48x2304_d0

set_option maxHeartbeats 1600000 in
/-- The array the region finds in its fifth window is that packing of the launched up-projection matrices. -/
theorem winU_eq : (V m c main_v15 : FVec F S48x2304 .f32)
    = packedU (m ((c : Thread nD τ).loc main_arg4)) (m ((c : Thread nD τ).loc main_arg6)) (m ((c : Thread nD τ).loc main_arg8)) := by
  dsimp only [V, V0]
  simp only [hostOps0, hostOps0_1, hostOps0_2, List.flatten_cons, List.flatten_nil, List.append_nil, List.cons_append, List.nil_append]
  simp only [after_cons, after_nil]
  rw [Cert.LibNary3.nary3_result]
  rfl

/-! ## The packed matrix read at an index -/

section ReadAt
open Idealize.ShloMosaic.ValueIdx

/-- Row r of row-block s of three [16, 2304] blocks stacked along the rows is row r of block s. -/
theorem rowBlocks_at (X0 X1 X2 : FVec F S16x2304 .f32) (s : Fin 3) (r : Fin 16) (o : Fin 2304) :
    concatenate S48x2304 0 [⟨S16x2304, X0⟩, ⟨S16x2304, X1⟩, ⟨S16x2304, X2⟩] Facts₀.concatenates_S16x2304_S16x2304_S16x2304_S48x2304_d0
        (ix2 (j48 s r) o) = pick s X0 X1 X2 (ix2 r o) := by
  match s with
  | ⟨0, _⟩ =>
    refine concatenate_apply_piece (t := S48x2304) 0 _ _ _ 0 (by show (0 : Nat) < 3; omega) S16x2304 X0 rfl rfl 0 rfl (ix2 r o) ?_ ?_
    · intro b hb; match b with
      | ⟨0, _⟩ => exact absurd rfl hb
      | ⟨1, _⟩ => rfl
    · show 0 + r.val = 16 * 0 + r.val; omega
  | ⟨1, _⟩ =>
    refine concatenate_apply_piece (t := S48x2304) 0 _ _ _ 1 (by show (1 : Nat) < 3; omega) S16x2304 X1 rfl rfl 16 rfl (ix2 r o) ?_ ?_
    · intro b hb; match b with
      | ⟨0, _⟩ => exact absurd rfl hb
      | ⟨1, _⟩ => rfl
    · show 16 + r.val = 16 * 1 + r.val; omega
  | ⟨2, _⟩ =>
    refine concatenate_apply_piece (t := S48x2304) 0 _ _ _ 2 (by show (2 : Nat) < 3; omega) S16x2304 X2 rfl rfl 32 rfl (ix2 r o) ?_ ?_
    · intro b hb; match b with
      | ⟨0, _⟩ => exact absurd rfl hb
      | ⟨1, _⟩ => rfl
    · show 32 + r.val = 16 * 2 + r.val; omega

/-- Column c' of column-block s' of three [16, 768] blocks laid side by side is column c' of block s'. -/
theorem colBlocks_at (Y0 Y1 Y2 : FVec F S16x768 .f32) (s' : Fin 3) (r : Fin 16) (c' : Fin 768) :
    concatenate S16x2304 1 [⟨S16x768, Y0⟩, ⟨S16x768, Y1⟩, ⟨S16x768, Y2⟩] Facts₀.concatenates_S16x768_S16x768_S16x768_S16x2304_d1
        (ix2 r (o2304 s' c')) = pick s' Y0 Y1 Y2 (ix2 r c') := by
  match s' with
  | ⟨0, _⟩ =>
    refine concatenate_apply_piece (t := S16x2304) 1 _ _ _ 0 (by show (0 : Nat) < 3; omega) S16x768 Y0 rfl rfl 0 rfl (ix2 r c') ?_ ?_
    · intro b hb; match b with
      | ⟨0, _⟩ => rfl
      | ⟨1, _⟩ => exact absurd rfl hb
    · show 0 + c'.val = 768 * 0 + c'.val; omega
  | ⟨1, _⟩ =>
    refine concatenate_apply_piece (t := S16x2304) 1 _ _ _ 1 (by show (1 : Nat) < 3; omega) S16x768 Y1 rfl rfl 768 rfl (ix2 r c') ?_ ?_
    · intro b hb; match b with
      | ⟨0, _⟩ => rfl
      | ⟨1, _⟩ => exact absurd rfl hb
    · show 768 + c'.val = 768 * 1 + c'.val; omega
  | ⟨2, _⟩ =>
    refine concatenate_apply_piece (t := S16x2304) 1 _ _ _ 2 (by show (2 : Nat) < 3; omega) S16x768 Y2 rfl rfl 1536 rfl (ix2 r c') ?_ ?_
    · intro b hb; match b with
      | ⟨0, _⟩ => rfl
      | ⟨1, _⟩ => exact absurd rfl hb
    · show 1536 + c'.val = 768 * 2 + c'.val; omega

/-- A transposed up-projection matrix at (r, c') is the matrix at (c', r). -/
theorem upT_at (u : (⟨S768x16, .f32⟩ : BufTy).Contents (Elt F)) (r : Fin 16) (c' : Fin 768) :
    upT (F := F) u (ix2 r c') = u (ix2 c' r) := by
  unfold upT
  refine transpose_apply _ _ _ (ix2 r c') (ix2 c' r) ?_
  intro b; match b with
  | ⟨0, _⟩ => rfl
  | ⟨1, _⟩ => rfl

end ReadAt

section AtIdeal
open Idealize.ShloMosaic.ValueIdx

/-- A zero block holds zeros. -/
theorem zeroBlk_at (r : Fin 16) (c' : Fin 768) : zeroBlk (F := Ideal) (ix2 r c') = 0 := by
  unfold zeroBlk
  refine (broadcastInDim_apply _ Facts₀.bcast_S_S16x768 _ (ix2 r c') ix0 (fun a => a.elim0)).trans ?_
  exact Ideal.ofBits_zero_f32

variable (mI : (ℓ : Loc nD τ sig) → Buf (Elt Ideal) ℓ)

/-- On the diagonal the packed matrix holds the section's own up-projection, transposed. -/
theorem packedU_diag (uq uk uv : (⟨S768x16, .f32⟩ : BufTy).Contents (Elt Ideal)) (s : Fin 3) (r : Fin 16) (c' : Fin 768) :
    packedU (F := Ideal) uq uk uv (ix2 (j48 s r) (o2304 s c')) = pick s uq uk uv (ix2 c' r) := by
  unfold packedU
  rw [rowBlocks_at]
  match s with
  | ⟨0, _⟩ => exact (colBlocks_at _ _ _ _ r c').trans (upT_at uq r c')
  | ⟨1, _⟩ => exact (colBlocks_at _ _ _ _ r c').trans (upT_at uk r c')
  | ⟨2, _⟩ => exact (colBlocks_at _ _ _ _ r c').trans (upT_at uv r c')

/-- Off the diagonal it holds zero. -/
theorem packedU_zero (uq uk uv : (⟨S768x16, .f32⟩ : BufTy).Contents (Elt Ideal)) (s s' : Fin 3) (r : Fin 16) (c' : Fin 768) (h : s ≠ s') :
    packedU (F := Ideal) uq uk uv (ix2 (j48 s r) (o2304 s' c')) = 0 := by
  unfold packedU
  rw [rowBlocks_at]
  match s, s', h with
  | ⟨0, _⟩, ⟨0, _⟩, h => exact absurd rfl h
  | ⟨0, _⟩, ⟨1, _⟩, _ => exact (colBlocks_at _ _ _ _ r c').trans (zeroBlk_at r c')
  | ⟨0, _⟩, ⟨2, _⟩, _ => exact (colBlocks_at _ _ _ _ r c').trans (zeroBlk_at r c')
  | ⟨1, _⟩, ⟨0, _⟩, _ => exact (colBlocks_at _ _ _ _ r c').trans (zeroBlk_at r c')
  | ⟨1, _⟩, ⟨1, _⟩, h => exact absurd rfl h
  | ⟨1, _⟩, ⟨2, _⟩, _ => exact (colBlocks_at _ _ _ _ r c').trans (zeroBlk_at r c')
  | ⟨2, _⟩, ⟨0, _⟩, _ => exact (colBlocks_at _ _ _ _ r c').trans (zeroBlk_at r c')
  | ⟨2, _⟩, ⟨1, _⟩, _ => exact (colBlocks_at _ _ _ _ r c').trans (zeroBlk_at r c')
  | ⟨2, _⟩, ⟨2, _⟩, h => exact absurd rfl h

end AtIdeal

end Cert.KernelIdeal.UpPacked

end
-- ==== Proof.HostPrefix.lean ====
/-
  What the kernel region's five input arrays hold when the region is entered, read at an index, in terms of the nine
  argument arrays: the token matrix is the tokens flattened to rows (token (b, n) at row 197 b + n) with padding rows
  below; the dense matrix is transposed; the bias is one row; the three down-projection matrices are transposed and
  laid side by side (column 16 s + r is row r of matrix s); the three up-projection matrices are transposed and put on
  the diagonal of a matrix that is zero elsewhere.
-/
import proofs.«170197_j63608465654579_1_alg».proof.Proof.IdealEntry
import proofs.«170197_j63608465654579_1_alg».proof.Proof.Spec
import proofs.«170197_j63608465654579_1_alg».proof.Proof.LibNary3
import proofs.«170197_j63608465654579_1_alg».proof.Proof.UpPacked
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostPrefix

open Cert.KernelIdeal Cert.KernelIdeal.Gen Cert.KernelIdeal.Entry Cert.LoraSpec
open Idealize.ShloMosaic Idealize.ShloMosaic.TcCoe Idealize.SL.Sem Idealize.ShloMosaic.ValueIdx
open Idealize.ShloMosaic.StableHlo

variable (m : (ℓ : Loc nD τ sig) → Buf (Elt Ideal) ℓ) (c : Dev nD)

/-- The argument arrays of core c as launched, each at its literal type. -/
abbrev argX : Tokens := m ((c : Thread nD τ).loc main_arg0)
abbrev argW : Dense := m ((c : Thread nD τ).loc main_arg1)
abbrev argBias : Bias := m ((c : Thread nD τ).loc main_arg2)
abbrev argAq : Down := m ((c : Thread nD τ).loc main_arg3)
abbrev argUq : Up := m ((c : Thread nD τ).loc main_arg4)
abbrev argAk : Down := m ((c : Thread nD τ).loc main_arg5)
abbrev argUk : Up := m ((c : Thread nD τ).loc main_arg6)
abbrev argAv : Down := m ((c : Thread nD τ).loc main_arg7)
abbrev argUv : Up := m ((c : Thread nD τ).loc main_arg8)

/-- The window arrays as the region finds them, each at its literal type. -/
abbrev winX : (⟨2, ![12800, 768]⟩ : Shape).Idx → EReal := V m c main_v1
abbrev winWT : DenseT := V m c main_v2
abbrev winBias : BiasRow := V m c main_v3
abbrev winA : DownPacked := V m c main_v7
abbrev winU : UpPacked := V m c main_v15

/-- Row of the flattened, padded token matrix that holds token (b, n). -/
def row (b : Fin 64) (n : Fin 197) : Fin 12800 := ⟨197 * b.val + n.val, by have := b.isLt; have := n.isLt; omega⟩

/-- The host operations run in order: at its own result buffer an operation leaves its function of its operands'
    contents (a three-operand concatenation: of the three contents listed one by one), at any other buffer what was there. -/
local macro "host_results" : tactic =>
  `(tactic| (simp only [after_cons, after_nil]
             repeat (first
               | rw [Cert.LibNary3.nary3_result]
               | rw [nullary_result] | rw [unary_result] | rw [binary_result]
               | rw [reshape_result] | rw [nary_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-- The contents of one buffer at the region's entry, as a term of the argument arrays. -/
local macro "open_host" : tactic =>
  `(tactic| (dsimp only [winX, winWT, winBias, winA, winU, V, V0]
             simp only [hostOps0, hostOps0_1, hostOps0_2, List.flatten_cons, List.flatten_nil, List.append_nil, List.cons_append, List.nil_append]
             host_results))

/-! ## The window arrays as terms of the argument arrays -/

/-- The token window: the tokens flattened to 12608 rows, then 192 rows of padding below. -/
private theorem winX_eq : winX m c = pad S12800x768 ![0, 0] ![192, 0] ![0, 0]
      (shapeCast S12608x768 (argX m c) shapeCasts_S64x197x768_S12608x768)
      (sitofp (F := Ideal) FTy.f32 (constantI S_ 32 0#32)) pads_S12608x768_S12800x768_01920_000 h_S_ := by
  open_host <;> rfl

/-- The dense window: the dense matrix transposed. -/
private theorem winWT_eq : winWT m c = transpose S768x2304 [1, 0] (argW m c) transposes_S2304x768_S768x2304_1_0 := by
  open_host <;> rfl

/-- The bias window: the bias as one row. -/
private theorem winBias_eq : winBias m c = shapeCast S1x2304 (argBias m c) shapeCasts_S2304_S1x2304 := by
  open_host <;> rfl

/-- The down window: the three down matrices transposed, side by side. -/
private theorem winA_eq : winA m c = concatenate S768x48 1
      [⟨S768x16, transpose S768x16 [1, 0] (argAq m c) transposes_S16x768_S768x16_1_0⟩,
       ⟨S768x16, transpose S768x16 [1, 0] (argAk m c) transposes_S16x768_S768x16_1_0⟩,
       ⟨S768x16, transpose S768x16 [1, 0] (argAv m c) transposes_S16x768_S768x16_1_0⟩]
      concatenates_S768x16_S768x16_S768x16_S768x48_d1 := by
  open_host <;> rfl

/-- A transposed [16, 768] matrix read at (k, r). -/
private theorem transposeDown_at (a : Down) (k : Fin 768) (r : Fin 16) :
    transpose S768x16 [1, 0] a transposes_S16x768_S768x16_1_0 (ix2 k r) = a (ix2 r k) :=
  transpose_apply _ _ _ _ (ix2 r k) (fun b => match b with | ⟨0, _⟩ => rfl | ⟨1, _⟩ => rfl)

/-! ## The window arrays read at an index -/

/-- The row of token (b, n) holds that token. -/
theorem tokens_at (b : Fin 64) (n : Fin 197) (k : Fin 768) : winX m c (ix2 (row b n) k) = argX m c (ix3 b n k) := by
  rw [winX_eq]
  have hrow : 197 * b.val + n.val < 12608 := by have := b.isLt; have := n.isLt; omega
  refine Eq.trans (pad_apply_of_inside (s := S12608x768) _ _ _ _ _ _ _ _ (ix2 (⟨197 * b.val + n.val, hrow⟩ : Fin 12608) k) ?_) ?_
  · intro a
    match a with
    | ⟨0, _⟩ => show 197 * b.val + n.val = 0 + (197 * b.val + n.val) * (0 + 1); omega
    | ⟨1, _⟩ => show k.val = 0 + k.val * (0 + 1); omega
  · refine shapeCast_apply _ _ _ (ix3 b n k) ?_
    rw [Shape.rowMajor_val_three, Shape.rowMajor_val_two]
    show (b.val * 197 + n.val) * 768 + k.val = (197 * b.val + n.val) * 768 + k.val
    omega
/-- The transposed dense matrix. -/
theorem denseT_at (k : Fin 768) (o : Fin 2304) : winWT m c (ix2 k o) = argW m c (ix2 o k) := by
  rw [winWT_eq]
  exact transpose_apply _ _ _ _ (ix2 o k) (fun b => match b with | ⟨0, _⟩ => rfl | ⟨1, _⟩ => rfl)
/-- The bias row. -/
theorem biasRow_at (o : Fin 2304) : winBias m c (ix2 (0 : Fin 1) o) = argBias m c (ix1 o) := by
  rw [winBias_eq]
  refine shapeCast_apply _ _ _ (ix1 o) ?_
  rw [Shape.rowMajor_val_one, Shape.rowMajor_val_two]
  show o.val = 0 * 2304 + o.val
  omega
/-- Column 16 s + r of the packed down-projections is row r of matrix s. -/
theorem downPacked_at (k : Fin 768) (s : Fin 3) (r : Fin 16) :
    winA m c (ix2 k (j48 s r)) = pick s (argAq m c) (argAk m c) (argAv m c) (ix2 r k) := by
  rw [winA_eq]
  match s with
  | ⟨0, _⟩ =>
    refine Eq.trans (concatenate_apply_piece (t := S768x48) 1 _ _ _ 0 (by simp) S768x16 _ rfl rfl 0 rfl (ix2 k r) ?_ ?_) (transposeDown_at _ k r)
    · intro b hb
      match b with
      | ⟨0, _⟩ => rfl
      | ⟨1, _⟩ => exact absurd rfl hb
    · show 0 + r.val = 16 * 0 + r.val
      omega
  | ⟨1, _⟩ =>
    refine Eq.trans (concatenate_apply_piece (t := S768x48) 1 _ _ _ 1 (by simp) S768x16 _ rfl rfl 16 rfl (ix2 k r) ?_ ?_) (transposeDown_at _ k r)
    · intro b hb
      match b with
      | ⟨0, _⟩ => rfl
      | ⟨1, _⟩ => exact absurd rfl hb
    · show 16 + r.val = 16 * 1 + r.val
      omega
  | ⟨2, _⟩ =>
    refine Eq.trans (concatenate_apply_piece (t := S768x48) 1 _ _ _ 2 (by simp) S768x16 _ rfl rfl 32 rfl (ix2 k r) ?_ ?_) (transposeDown_at _ k r)
    · intro b hb
      match b with
      | ⟨0, _⟩ => rfl
      | ⟨1, _⟩ => exact absurd rfl hb
    · show 32 + r.val = 16 * 2 + r.val
      omega
/-- On the diagonal blocks the packed up-projections hold the section's matrix, transposed. -/
theorem upPacked_diag (s : Fin 3) (r : Fin 16) (c' : Fin 768) :
    winU m c (ix2 (j48 s r) (o2304 s c')) = pick s (argUq m c) (argUk m c) (argUv m c) (ix2 c' r) := by
  show (V m c main_v15 : FVec Ideal S48x2304 .f32) (ix2 (j48 s r) (o2304 s c')) = _
  rw [Cert.KernelIdeal.UpPacked.winU_eq]
  exact Cert.KernelIdeal.UpPacked.packedU_diag _ _ _ s r c'
/-- Off the diagonal blocks they hold zero. -/
theorem upPacked_zero (s s' : Fin 3) (r : Fin 16) (c' : Fin 768) (h : s ≠ s') :
    winU m c (ix2 (j48 s r) (o2304 s' c')) = 0 := by
  show (V m c main_v15 : FVec Ideal S48x2304 .f32) (ix2 (j48 s r) (o2304 s' c')) = _
  rw [Cert.KernelIdeal.UpPacked.winU_eq]
  exact Cert.KernelIdeal.UpPacked.packedU_zero _ _ _ s s' r c' h

end Cert.KernelIdeal.HostPrefix

end
-- ==== Proof.Payload.lean ====
/-
  The value the kernel body stores, read at one element of the 256 x 2304 tile, over the extended reals.

  The body narrows its five loaded blocks to a shorter float format (the identity here), multiplies the token tile by
  the dense matrix and by the packed down-projections, multiplies that second product by the packed up-projections,
  and adds the two results and the bias row broadcast down the rows. Each matrix product starts from a zero accumulator,
  so at (p, q) it is the plain sum over the contracted axis; the whole value at (p, q) is

    (∑ₖ x[p,k] · w[k,q] + ∑ⱼ (∑ₖ x[p,k] · a[k,j]) · u[j,q]) + bias[0,q].
-/
import proofs.«170197_j63608465654579_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-! ### The product S256x768 by S768x2304 -/

private theorem lhs_mmA_0 (i : S256x2304.Idx) (c : dot_S256x768_S768x2304_S256x2304_1_0_0_1_n_n.contr.Idx) :
    (dot_S256x768_S768x2304_S256x2304_1_0_0_1_n_n.lhsIdx i c 0).val = (i 0).val := by
  unfold DotDims.lhsIdx
  rw [dif_neg (show ¬(0 : Fin S256x768.rank) ∈ dot_S256x768_S768x2304_S256x2304_1_0_0_1_n_n.lhsBatch by decide), dif_pos (show (0 : Fin S256x768.rank) ∈ dot_S256x768_S768x2304_S256x2304_1_0_0_1_n_n.lhsNonContracting by decide)]
  rfl
private theorem lhs_mmA_1 (i : S256x2304.Idx) (c : dot_S256x768_S768x2304_S256x2304_1_0_0_1_n_n.contr.Idx) :
    (dot_S256x768_S768x2304_S256x2304_1_0_0_1_n_n.lhsIdx i c 1).val = (c ⟨0, by decide⟩).val :=
  dot_S256x768_S768x2304_S256x2304_1_0_0_1_n_n.lhsIdx_val_of_single rfl i c
private theorem rhs_mmA_0 (i : S256x2304.Idx) (c : dot_S256x768_S768x2304_S256x2304_1_0_0_1_n_n.contr.Idx) :
    (dot_S256x768_S768x2304_S256x2304_1_0_0_1_n_n.rhsIdx i c 0).val = (c ⟨0, by decide⟩).val :=
  dot_S256x768_S768x2304_S256x2304_1_0_0_1_n_n.rhsIdx_val_of_single rfl i c
private theorem rhs_mmA_1 (i : S256x2304.Idx) (c : dot_S256x768_S768x2304_S256x2304_1_0_0_1_n_n.contr.Idx) :
    (dot_S256x768_S768x2304_S256x2304_1_0_0_1_n_n.rhsIdx i c 1).val = (i 1).val := by
  unfold DotDims.rhsIdx
  rw [dif_neg (show ¬(1 : Fin S768x2304.rank) ∈ dot_S256x768_S768x2304_S256x2304_1_0_0_1_n_n.rhsBatch by decide), dif_pos (show (1 : Fin S768x2304.rank) ∈ dot_S256x768_S768x2304_S256x2304_1_0_0_1_n_n.rhsNonContracting by decide)]
  rfl

/-- Into a zero accumulator, the entry at row `p`, column `q` of the product is the sum over the contracted axis of the
    left operand's row `p` times the right operand's column `q`. -/
private theorem mmA_apply {φ₁ φ₂ : FTy} (a : FVec Ideal S256x768 φ₁) (b : FVec Ideal S768x2304 φ₂) (p : Fin 256) (q : Fin 2304) :
    matmul dot_S256x768_S768x2304_S256x2304_1_0_0_1_n_n none a b (constant S256x2304 .f32 0x00000000#32) (ix2 p q)
      = ∑ k : Fin 768, a (ix2 p k) * b (ix2 k q) := by
  refine (Ideal.matmul_constant_zero_apply dot_S256x768_S768x2304_S256x2304_1_0_0_1_n_n none a b (ix2 p q)).trans ?_
  rw [← Equiv.sum_comp (ValueIdx.contrEquiv1 dot_S256x768_S768x2304_S256x2304_1_0_0_1_n_n 768 rfl rfl).symm]
  refine Finset.sum_congr rfl fun k _ => ?_
  have hk := ValueIdx.contrEquiv1_symm_val dot_S256x768_S768x2304_S256x2304_1_0_0_1_n_n 768 rfl rfl k
  have el : dot_S256x768_S768x2304_S256x2304_1_0_0_1_n_n.lhsIdx (ix2 p q) ((ValueIdx.contrEquiv1 dot_S256x768_S768x2304_S256x2304_1_0_0_1_n_n 768 rfl rfl).symm k) = ix2 p k := funext fun x => Fin.ext (by
    match x with
    | ⟨0, _⟩ => exact lhs_mmA_0 _ _
    | ⟨1, _⟩ => exact (lhs_mmA_1 _ _).trans hk)
  have er : dot_S256x768_S768x2304_S256x2304_1_0_0_1_n_n.rhsIdx (ix2 p q) ((ValueIdx.contrEquiv1 dot_S256x768_S768x2304_S256x2304_1_0_0_1_n_n 768 rfl rfl).symm k) = ix2 k q := funext fun x => Fin.ext (by
    match x with
    | ⟨0, _⟩ => exact (rhs_mmA_0 _ _).trans hk
    | ⟨1, _⟩ => exact rhs_mmA_1 _ _)
  rw [el, er]

/-! ### The product S256x768 by S768x48 -/

private theorem lhs_mmB_0 (i : S256x48.Idx) (c : dot_S256x768_S768x48_S256x48_1_0_0_1_n_n.contr.Idx) :
    (dot_S256x768_S768x48_S256x48_1_0_0_1_n_n.lhsIdx i c 0).val = (i 0).val := by
  unfold DotDims.lhsIdx
  rw [dif_neg (show ¬(0 : Fin S256x768.rank) ∈ dot_S256x768_S768x48_S256x48_1_0_0_1_n_n.lhsBatch by decide), dif_pos (show (0 : Fin S256x768.rank) ∈ dot_S256x768_S768x48_S256x48_1_0_0_1_n_n.lhsNonContracting by decide)]
  rfl
private theorem lhs_mmB_1 (i : S256x48.Idx) (c : dot_S256x768_S768x48_S256x48_1_0_0_1_n_n.contr.Idx) :
    (dot_S256x768_S768x48_S256x48_1_0_0_1_n_n.lhsIdx i c 1).val = (c ⟨0, by decide⟩).val :=
  dot_S256x768_S768x48_S256x48_1_0_0_1_n_n.lhsIdx_val_of_single rfl i c
private theorem rhs_mmB_0 (i : S256x48.Idx) (c : dot_S256x768_S768x48_S256x48_1_0_0_1_n_n.contr.Idx) :
    (dot_S256x768_S768x48_S256x48_1_0_0_1_n_n.rhsIdx i c 0).val = (c ⟨0, by decide⟩).val :=
  dot_S256x768_S768x48_S256x48_1_0_0_1_n_n.rhsIdx_val_of_single rfl i c
private theorem rhs_mmB_1 (i : S256x48.Idx) (c : dot_S256x768_S768x48_S256x48_1_0_0_1_n_n.contr.Idx) :
    (dot_S256x768_S768x48_S256x48_1_0_0_1_n_n.rhsIdx i c 1).val = (i 1).val := by
  unfold DotDims.rhsIdx
  rw [dif_neg (show ¬(1 : Fin S768x48.rank) ∈ dot_S256x768_S768x48_S256x48_1_0_0_1_n_n.rhsBatch by decide), dif_pos (show (1 : Fin S768x48.rank) ∈ dot_S256x768_S768x48_S256x48_1_0_0_1_n_n.rhsNonContracting by decide)]
  rfl

/-- Into a zero accumulator, the entry at row `p`, column `q` of the product is the sum over the contracted axis of the
    left operand's row `p` times the right operand's column `q`. -/
private theorem mmB_apply {φ₁ φ₂ : FTy} (a : FVec Ideal S256x768 φ₁) (b : FVec Ideal S768x48 φ₂) (p : Fin 256) (q : Fin 48) :
    matmul dot_S256x768_S768x48_S256x48_1_0_0_1_n_n none a b (constant S256x48 .f32 0x00000000#32) (ix2 p q)
      = ∑ k : Fin 768, a (ix2 p k) * b (ix2 k q) := by
  refine (Ideal.matmul_constant_zero_apply dot_S256x768_S768x48_S256x48_1_0_0_1_n_n none a b (ix2 p q)).trans ?_
  rw [← Equiv.sum_comp (ValueIdx.contrEquiv1 dot_S256x768_S768x48_S256x48_1_0_0_1_n_n 768 rfl rfl).symm]
  refine Finset.sum_congr rfl fun k _ => ?_
  have hk := ValueIdx.contrEquiv1_symm_val dot_S256x768_S768x48_S256x48_1_0_0_1_n_n 768 rfl rfl k
  have el : dot_S256x768_S768x48_S256x48_1_0_0_1_n_n.lhsIdx (ix2 p q) ((ValueIdx.contrEquiv1 dot_S256x768_S768x48_S256x48_1_0_0_1_n_n 768 rfl rfl).symm k) = ix2 p k := funext fun x => Fin.ext (by
    match x with
    | ⟨0, _⟩ => exact lhs_mmB_0 _ _
    | ⟨1, _⟩ => exact (lhs_mmB_1 _ _).trans hk)
  have er : dot_S256x768_S768x48_S256x48_1_0_0_1_n_n.rhsIdx (ix2 p q) ((ValueIdx.contrEquiv1 dot_S256x768_S768x48_S256x48_1_0_0_1_n_n 768 rfl rfl).symm k) = ix2 k q := funext fun x => Fin.ext (by
    match x with
    | ⟨0, _⟩ => exact (rhs_mmB_0 _ _).trans hk
    | ⟨1, _⟩ => exact rhs_mmB_1 _ _)
  rw [el, er]

/-! ### The product S256x48 by S48x2304 -/

private theorem lhs_mmC_0 (i : S256x2304.Idx) (c : dot_S256x48_S48x2304_S256x2304_1_0_0_1_n_n.contr.Idx) :
    (dot_S256x48_S48x2304_S256x2304_1_0_0_1_n_n.lhsIdx i c 0).val = (i 0).val := by
  unfold DotDims.lhsIdx
  rw [dif_neg (show ¬(0 : Fin S256x48.rank) ∈ dot_S256x48_S48x2304_S256x2304_1_0_0_1_n_n.lhsBatch by decide), dif_pos (show (0 : Fin S256x48.rank) ∈ dot_S256x48_S48x2304_S256x2304_1_0_0_1_n_n.lhsNonContracting by decide)]
  rfl
private theorem lhs_mmC_1 (i : S256x2304.Idx) (c : dot_S256x48_S48x2304_S256x2304_1_0_0_1_n_n.contr.Idx) :
    (dot_S256x48_S48x2304_S256x2304_1_0_0_1_n_n.lhsIdx i c 1).val = (c ⟨0, by decide⟩).val :=
  dot_S256x48_S48x2304_S256x2304_1_0_0_1_n_n.lhsIdx_val_of_single rfl i c
private theorem rhs_mmC_0 (i : S256x2304.Idx) (c : dot_S256x48_S48x2304_S256x2304_1_0_0_1_n_n.contr.Idx) :
    (dot_S256x48_S48x2304_S256x2304_1_0_0_1_n_n.rhsIdx i c 0).val = (c ⟨0, by decide⟩).val :=
  dot_S256x48_S48x2304_S256x2304_1_0_0_1_n_n.rhsIdx_val_of_single rfl i c
private theorem rhs_mmC_1 (i : S256x2304.Idx) (c : dot_S256x48_S48x2304_S256x2304_1_0_0_1_n_n.contr.Idx) :
    (dot_S256x48_S48x2304_S256x2304_1_0_0_1_n_n.rhsIdx i c 1).val = (i 1).val := by
  unfold DotDims.rhsIdx
  rw [dif_neg (show ¬(1 : Fin S48x2304.rank) ∈ dot_S256x48_S48x2304_S256x2304_1_0_0_1_n_n.rhsBatch by decide), dif_pos (show (1 : Fin S48x2304.rank) ∈ dot_S256x48_S48x2304_S256x2304_1_0_0_1_n_n.rhsNonContracting by decide)]
  rfl

/-- Into a zero accumulator, the entry at row `p`, column `q` of the product is the sum over the contracted axis of the
    left operand's row `p` times the right operand's column `q`. -/
private theorem mmC_apply {φ₁ φ₂ : FTy} (a : FVec Ideal S256x48 φ₁) (b : FVec Ideal S48x2304 φ₂) (p : Fin 256) (q : Fin 2304) :
    matmul dot_S256x48_S48x2304_S256x2304_1_0_0_1_n_n none a b (constant S256x2304 .f32 0x00000000#32) (ix2 p q)
      = ∑ k : Fin 48, a (ix2 p k) * b (ix2 k q) := by
  refine (Ideal.matmul_constant_zero_apply dot_S256x48_S48x2304_S256x2304_1_0_0_1_n_n none a b (ix2 p q)).trans ?_
  rw [← Equiv.sum_comp (ValueIdx.contrEquiv1 dot_S256x48_S48x2304_S256x2304_1_0_0_1_n_n 48 rfl rfl).symm]
  refine Finset.sum_congr rfl fun k _ => ?_
  have hk := ValueIdx.contrEquiv1_symm_val dot_S256x48_S48x2304_S256x2304_1_0_0_1_n_n 48 rfl rfl k
  have el : dot_S256x48_S48x2304_S256x2304_1_0_0_1_n_n.lhsIdx (ix2 p q) ((ValueIdx.contrEquiv1 dot_S256x48_S48x2304_S256x2304_1_0_0_1_n_n 48 rfl rfl).symm k) = ix2 p k := funext fun x => Fin.ext (by
    match x with
    | ⟨0, _⟩ => exact lhs_mmC_0 _ _
    | ⟨1, _⟩ => exact (lhs_mmC_1 _ _).trans hk)
  have er : dot_S256x48_S48x2304_S256x2304_1_0_0_1_n_n.rhsIdx (ix2 p q) ((ValueIdx.contrEquiv1 dot_S256x48_S48x2304_S256x2304_1_0_0_1_n_n 48 rfl rfl).symm k) = ix2 k q := funext fun x => Fin.ext (by
    match x with
    | ⟨0, _⟩ => exact (rhs_mmC_0 _ _).trans hk
    | ⟨1, _⟩ => exact rhs_mmC_1 _ _)
  rw [el, er]

/-! ### The bias row -/

/-- The one-row vector spread over 256 rows, read at row `p`, column `q`, is its entry at row `0`, column `q`. -/
private theorem bias_apply (b : FVec Ideal S1x2304 .f32) (p : Fin 256) (q : Fin 2304) :
    broadcastTo S256x2304 b broadcasts_S1x2304_S256x2304 (ix2 p q) = b (ix2 (0 : Fin 1) q) :=
  broadcastTo_apply b broadcasts_S1x2304_S256x2304 (ix2 p q) (ix2 (0 : Fin 1) q) (fun x => by
    match x with
    | ⟨0, _⟩ => rfl
    | ⟨1, _⟩ => rfl)

/-! ### The stored value -/

theorem pay_apply (x0 : Vec Ideal S256x768 .f32) (x3 : Vec Ideal S768x2304 .f32) (x7 : Vec Ideal S768x48 .f32)
    (x11 : Vec Ideal S48x2304 .f32) (x17 : Vec Ideal S1x2304 .f32) (p : Fin 256) (q : Fin 2304) :
    k0_pay1 (F := Ideal) x0 x3 x7 x11 x17 (ix2 p q)
      = ((∑ k : Fin 768, x0 (ix2 p k) * x3 (ix2 k q))
          + ∑ j : Fin 48, (∑ k : Fin 768, x0 (ix2 p k) * x7 (ix2 k j)) * x11 (ix2 j q)) + x17 (ix2 (0 : Fin 1) q) := by
  -- each shape cast is to the same shape, hence the identity
  have h0 : shapeCast S256x768 x0 shapeCasts_S256x768_S256x768 = x0 := shapeCast_self _ _
  have h3 : shapeCast S768x2304 x3 shapeCasts_S768x2304_S768x2304 = x3 := shapeCast_self _ _
  have h7 : shapeCast S768x48 x7 shapeCasts_S768x48_S768x48 = x7 := shapeCast_self _ _
  have h11 : shapeCast S48x2304 x11 shapeCasts_S48x2304_S48x2304 = x11 := shapeCast_self _ _
  have h17 : shapeCast S1x2304 x17 shapeCasts_S1x2304_S1x2304 = x17 := shapeCast_self _ _
  unfold k0_pay1
  rw [h0, h3, h7, h11, h17]
  -- the two sums of vectors read entrywise; the narrowing to bf16 is the identity on extended reals
  refine (addf_apply _ _ (ix2 p q)).trans ?_
  refine congrArg₂ (· + ·) ((addf_apply _ _ (ix2 p q)).trans (congrArg₂ (· + ·) ?_ ?_)) (bias_apply x17 p q)
  · exact mmA_apply _ _ p q
  · refine (mmC_apply _ _ p q).trans ?_
    refine Finset.sum_congr rfl fun j _ => ?_
    exact congrArg (· * x11 (ix2 j q)) (mmB_apply _ _ p j)

end Cert.KernelIdeal.Payload

end
-- ==== Proof.KernelValue.lean ====
/-
  What the idealized kernel program computes: its result array, element by element, is the specification's result
  of the nine argument arrays.

  The region's output array has 12800 rows (the 12608 token rows and 192 rows of padding) and is written tile by tile:
  grid point t writes rows 256 t … 256 t + 255, all 2304 columns, and the 50 tiles cover the array. The body's stored
  value at row p of tile t, column o is the fused form — dense product, plus the product through the 48 packed rank
  coordinates, plus the bias — of row 256 t + p of the padded token matrix and the four whole matrices, so the array
  after the region is that ONE function of the arrays the region found. The two host operations after the region drop
  the padding rows and fold the row axis back into (batch, token): element (b, n, o) of the program's result is row
  197 b + n, column o of the output array, and that row of the padded token matrix is token (b, n). The packed
  matrices hold what the packing put there, so the fused form is the specification's result (the law of the
  specification module).
-/
import proofs.«170197_j63608465654579_1_alg».proof.Proof.IdealFrame
import proofs.«170197_j63608465654579_1_alg».proof.Proof.HostPrefix
import proofs.«170197_j63608465654579_1_alg».proof.Proof.Payload
import proofs.«170197_j63608465654579_1_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Val

open Cert.KernelIdeal Cert.KernelIdeal.Gen Cert.KernelIdeal.Entry Cert.KernelIdeal.Fr Cert.KernelIdeal.HostPrefix Cert.LoraSpec
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The output array as one function of the arrays the region finds -/

/-- The fused form at row R of the padded token matrix and column o. -/
def fusedAt (c : Dev nD) (R : Fin 12800) (o : Fin 2304) : EReal :=
  ((∑ k : Fin 768, winX m c (ix2 R k) * winWT m c (ix2 k o))
    + ∑ j : Fin 48, (∑ k : Fin 768, winX m c (ix2 R k) * winA m c (ix2 k j)) * winU m c (ix2 j o)) + winBias m c (ix2 (0 : Fin 1) o)

/-- The whole output array. -/
def outArr (c : Dev nD) : S12800x2304.Idx → EReal := fun i => fusedAt m c ⟨(i 0).val, (i 0).isLt⟩ ⟨(i 1).val, (i 1).isLt⟩

theorem hz : (![0, 0] : Fin 2 → Nat) = fun _ => 0 := funext fun a => by fin_cases a <;> rfl

/-- The printed index maps over the grid: the token and output windows move one tile down per point, the four matrices
    stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of tile t. -/
def tileRow (t : Fin cfg0.N) (p : Fin 256) : Fin 12800 :=
  ⟨256 * t.val + p.val, by have h : t.val < 50 := t.isLt; have := p.isLt; omega⟩

/-- The blocks the body loads, read where the arrays hold them. -/
theorem blkTok (c : Dev nD) (t : Fin cfg0.N) (p : Fin 256) (k : Fin 768) :
    (iblk m c 0 t : S256x768.Idx → EReal) (ix2 p k) = winX m c (ix2 (tileRow t p) k) := by
  show V m c main_v1 (((cfg0.win 0).blk t).view.emb (ix2 p k)) = V m c main_v1 (ix2 (tileRow t p) k)
  refine congrArg _ (funext fun a => Fin.ext ?_)
  obtain ⟨e0, e1, -⟩ := idx_facts t
  match a with
  | ⟨0, _⟩ => show win0_0.index t (0 : Fin 2) * 256 + 1 * p.val = 256 * t.val + p.val; omega
  | ⟨1, _⟩ => show win0_0.index t (1 : Fin 2) * 768 + 1 * k.val = k.val; omega
theorem blkW (c : Dev nD) (t : Fin cfg0.N) (k : Fin 768) (o : Fin 2304) :
    (iblk m c 1 t : S768x2304.Idx → EReal) (ix2 k o) = winWT m c (ix2 k o) := by
  show V m c main_v2 (((cfg0.win 1).blk t).view.emb (ix2 k o)) = V m c main_v2 (ix2 k o)
  refine congrArg _ (funext fun a => Fin.ext ?_)
  obtain ⟨-, -, e0, e1, -⟩ := idx_facts t
  match a with
  | ⟨0, _⟩ => show win0_1.index t (0 : Fin 2) * 768 + 1 * k.val = k.val; omega
  | ⟨1, _⟩ => show win0_1.index t (1 : Fin 2) * 2304 + 1 * o.val = o.val; omega
theorem blkBias (c : Dev nD) (t : Fin cfg0.N) (o : Fin 2304) :
    (iblk m c 2 t : S1x2304.Idx → EReal) (ix2 (0 : Fin 1) o) = winBias m c (ix2 (0 : Fin 1) o) := by
  show V m c main_v3 (((cfg0.win 2).blk t).view.emb (ix2 (0 : Fin 1) o)) = V m c main_v3 (ix2 (0 : Fin 1) o)
  refine congrArg _ (funext fun a => Fin.ext ?_)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 2304 + 1 * o.val = o.val; omega
theorem blkDown (c : Dev nD) (t : Fin cfg0.N) (k : Fin 768) (j : Fin 48) :
    (iblk m c 3 t : S768x48.Idx → EReal) (ix2 k j) = winA m c (ix2 k j) := by
  show V m c main_v7 (((cfg0.win 3).blk t).view.emb (ix2 k j)) = V m c main_v7 (ix2 k j)
  refine congrArg _ (funext fun a => Fin.ext ?_)
  obtain ⟨-, -, -, -, -, -, e0, e1, -⟩ := idx_facts t
  match a with
  | ⟨0, _⟩ => show win0_3.index t (0 : Fin 2) * 768 + 1 * k.val = k.val; omega
  | ⟨1, _⟩ => show win0_3.index t (1 : Fin 2) * 48 + 1 * j.val = j.val; omega
theorem blkUp (c : Dev nD) (t : Fin cfg0.N) (j : Fin 48) (o : Fin 2304) :
    (iblk m c 4 t : S48x2304.Idx → EReal) (ix2 j o) = winU m c (ix2 j o) := by
  show V m c main_v15 (((cfg0.win 4).blk t).view.emb (ix2 j o)) = V m c main_v15 (ix2 j o)
  refine congrArg _ (funext fun a => Fin.ext ?_)
  obtain ⟨-, -, -, -, -, -, -, -, e0, e1, -⟩ := idx_facts t
  match a with
  | ⟨0, _⟩ => show win0_4.index t (0 : Fin 2) * 48 + 1 * j.val = j.val; omega
  | ⟨1, _⟩ => show win0_4.index t (1 : Fin 2) * 2304 + 1 * o.val = o.val; omega

/-- WHAT POINT t WRITES BACK is tile t of the output array. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after5]
  unfold outTile
  rw [View.canon_unit_zero hz]
  simp only [View.ld_unit_zero (S := S256x768) hz, View.ld_unit_zero (S := S768x2304) hz, View.ld_unit_zero (S := S1x2304) hz,
    View.ld_unit_zero (S := S768x48) hz, View.ld_unit_zero (S := S48x2304) hz]
  funext j
  obtain ⟨p, q, rfl⟩ : ∃ (p : Fin 256) (q : Fin 2304), j = ix2 p q := ⟨j 0, j 1, eq_ix2 j⟩
  refine (Cert.KernelIdeal.Payload.pay_apply (iblk m c 0 t) (iblk m c 1 t) (iblk m c 3 t) (iblk m c 4 t) (iblk m c 2 t) p q).trans ?_
  simp only [blkTok, blkW, blkBias, blkDown, blkUp]
  show fusedAt m c (tileRow t p) q = outArr m c (((cfg0.win 5).blk t).view.emb (ix2 p q))
  unfold outArr
  obtain ⟨-, -, -, -, -, -, -, -, -, -, e0, e1⟩ := idx_facts t
  congr 1
  · exact Fin.ext (by show 256 * t.val + p.val = win0_5.index t (0 : Fin 2) * 256 + 1 * p.val; omega)
  · exact Fin.ext (by show q.val = win0_5.index t (1 : Fin 2) * 2304 + 1 * q.val; omega)

/-- An index of the output array is in tile t iff each coordinate is in the tile's range on its axis. -/
theorem mem_blk (t : Fin cfg0.N) (i : S12800x2304.Idx) :
    i ∈ ((cfg0.win 5).blk t).view.set ↔ ∀ a : Fin 2, win0_5.index t a * S256x2304.size a ≤ (i a).val ∧ (i a).val < win0_5.index t a * S256x2304.size a + S256x2304.size a := by
  show i ∈ ((View.whole main_v16).slice (win0_5.rect t)).set ↔ _
  rw [View.set_slice_whole, Rect.mem_set_unit]
  exact Iff.rfl

/-- The tiles cover the array: row R lies in tile R / 256. -/
theorem cover (i : S12800x2304.Idx) : ∃ t : Fin cfg0.N, (cfg0.win 5).flush t = true ∧ i ∈ ((cfg0.win 5).blk t).view.set := by
  have hi0 : (i 0).val < 12800 := (i 0).isLt
  have hi1 : (i 1).val < 2304 := (i 1).isLt
  let t : Fin cfg0.N := ⟨(i 0).val / 256, by show (i 0).val / 256 < 50; omega⟩
  refine ⟨t, flush0_5 t, ?_⟩
  rw [mem_blk]
  obtain ⟨-, -, -, -, -, -, -, -, -, -, e0, e1⟩ := idx_facts t
  have ht : t.val = (i 0).val / 256 := rfl
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 2304 ≤ (i 1).val ∧ (i 1).val < win0_5.index t (1 : Fin 2) * 2304 + 2304; omega

/-- THE OUTPUT ARRAY after the region. -/
theorem final (c : Dev nD) : (dats m 0 c).arrAt 5 cfg0.N = outArr m c :=
  (dats m 0 c).arrAt_eq_of_cover 5 (outArr m c) (fun t _ => flushed_eq m c t) (cover)

/-! ## The program's result -/

/-- The fused form of ONE token row xr against the four matrices. -/
def fusedRow (xr : Fin 768 → EReal) (wT : DenseT) (brow : BiasRow) (aP : DownPacked) (uP : UpPacked) (o : Fin 2304) : EReal :=
  ((∑ k : Fin 768, xr k * wT (ix2 k o)) + ∑ j : Fin 48, (∑ k : Fin 768, xr k * aP (ix2 k j)) * uP (ix2 j o)) + brow (ix2 (0 : Fin 1) o)

/-- The row of the padded token matrix that holds token (b, n) is that token: the fused form there is the fused form
    over the token array itself. -/
theorem fusedAt_row (c : Dev nD) (b : Fin 64) (n : Fin 197) (o : Fin 2304) :
    fusedAt m c (row b n) o = fused (argX m c) (winWT m c) (winBias m c) (winA m c) (winU m c) b n o := by
  show fusedRow (fun k => winX m c (ix2 (row b n) k)) (winWT m c) (winBias m c) (winA m c) (winU m c) o
      = fusedRow (fun k => argX m c (ix3 b n k)) (winWT m c) (winBias m c) (winA m c) (winU m c) o
  exact congrArg (fun xr => fusedRow xr (winWT m c) (winBias m c) (winA m c) (winU m c) o) (funext (tokens_at m c b n))

/-- THE RESULT: what the two operations after the region leave in the program's result buffer — the output array
    without its padding rows, its row axis folded back into (batch, token) — is the specification's result of the
    argument arrays. -/
theorem result_eq (c : Dev nD) :
    (Pipeline.afterTail₀ cfgs (dats m) 0 (V0 m) [hostOps1] c main_v18 : S64x197x2304.Idx → EReal)
      = G (argX m c) (argW m c) (argBias m c) (argAq m c) (argUq m c) (argAk m c) (argUk m c) (argAv m c) (argUv m c) := by
  unfold Pipeline.afterTail₀
  show StableHlo.after hostOps1 _ (Proc.devRef .tc main_v18) = _
  after_results
  rw [Pipeline.withArrays_arr spec0 launch0.win.arr_inj c _ _ 5, final]
  funext i
  obtain ⟨b, n, o, rfl⟩ : ∃ (b : Fin 64) (n : Fin 197) (o : Fin 2304), i = ix3 b n o := ⟨i 0, i 1, i 2, eq_ix3 i⟩
  show shapeCast S64x197x2304 (extractStridedSlice S12608x2304 ![0, 0] (outArr m c) slices_S12800x2304_S12608x2304_0_0)
      shapeCasts_S12608x2304_S64x197x2304 (ix3 b n o) = _
  have hrow : 197 * b.val + n.val < 12608 := by have := b.isLt; have := n.isLt; omega
  refine (shapeCast_apply _ _ (ix3 b n o) (ix2 (⟨197 * b.val + n.val, hrow⟩ : Fin 12608) o) ?_).trans ?_
  · rw [Shape.rowMajor_val_two, Shape.rowMajor_val_three]
    show (197 * b.val + n.val) * 2304 + o.val = (b.val * 197 + n.val) * 2304 + o.val
    omega
  refine (extractStridedSlice_apply _ _ _ (ix2 (⟨197 * b.val + n.val, hrow⟩ : Fin 12608) o) (ix2 (row b n) o) ?_).trans ?_
  · intro a
    match a with
    | ⟨0, _⟩ => show 197 * b.val + n.val = 0 + (197 * b.val + n.val); omega
    | ⟨1, _⟩ => show o.val = 0 + o.val; omega
  show fusedAt m c (row b n) o = _
  rw [fusedAt_row]
  exact fused_eq_G _ _ _ _ _ _ _ _ _ _ _ _ _ (denseT_at m c) (biasRow_at m c) (downPacked_at m c) (upPacked_diag m c)
    (fun s s' r c' h => upPacked_zero m c s s' r c' h) b n o

/-- THE RUN, read: every weakly fair execution of the idealized kernel program terminates with its result buffer at
    the specification's result of the argument arrays, and the argument arrays as launched. -/
theorem run : θ_run defs (onTc (τ := τ) (main (F := Ideal))) ⟨m, fun _ => 0, ρ⟩ (fun r => ∀ c : Dev nD,
      r.2.mem ((c.tc : Thread nD τ).loc main_v18)
        = G (argX m c) (argW m c) (argBias m c) (argAq m c) (argUq m c) (argAk m c) (argUk m c) (argAv m c) (argUv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c).2 main_v18 (Pipeline.mem_restRefs_of main_v18 (by decide) (by decide))).trans (result_eq m c),
     arg_kept m r h c main_arg0 (by decide) (by decide) (by decide) (by decide) (by decide),
     arg_kept m r h c main_arg1 (by decide) (by decide) (by decide) (by decide) (by decide),
     arg_kept m r h c main_arg2 (by decide) (by decide) (by decide) (by decide) (by decide),
     arg_kept m r h c main_arg3 (by decide) (by decide) (by decide) (by decide) (by decide),
     arg_kept m r h c main_arg4 (by decide) (by decide) (by decide) (by decide) (by decide),
     arg_kept m r h c main_arg5 (by decide) (by decide) (by decide) (by decide) (by decide),
     arg_kept m r h c main_arg6 (by decide) (by decide) (by decide) (by decide) (by decide),
     arg_kept m r h c main_arg7 (by decide) (by decide) (by decide) (by decide) (by decide),
     arg_kept m r h c main_arg8 (by decide) (by decide) (by decide) (by decide) (by decide)⟩) (run_main (F := Ideal) m ρ)

end Cert.KernelIdeal.Val

end
-- ==== Proof.RefIsSpec.lean ====
/-
  The reference program's result, element by element, is the specification's.

  At output (b, n, o) the reference adds three things: the dense product ∑ₖ x[b,n,k] · w[o,k], the bias at o, and the
  entry at o of three [64, 197, 768] corrections laid end to end along the last axis. Column o lies in exactly one of
  the spans [0, 768), [768, 1536), [1536, 2304): that is section o / 768, and the entry read there is that section's
  correction at column o % 768, which is ∑ᵣ (∑ₖ x[b,n,k] · a[r,k]) · u[c,r] for the section's own a and u. Nothing is
  rearranged: each stage is read at an index and the sums match term by term.
-/
import proofs.«170197_j63608465654579_1_alg».proof.Proof.Gen.ReferenceIdeal.Read
import proofs.«170197_j63608465654579_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The dense product and the bias broadcast over tokens, at one element. -/
private theorem dense_bias_read (x0 : (⟨S64x197x768, .f32⟩ : BufTy).Contents (Elt Ideal))
    (x1 : (⟨S2304x768, .f32⟩ : BufTy).Contents (Elt Ideal)) (x2 : (⟨S2304, .f32⟩ : BufTy).Contents (Elt Ideal))
    (b : Fin 64) (n : Fin 197) (o : Fin 2304) :
    val_main_v3 (F := Ideal) x0 x1 x2 (ix3 b n o) = Cert.LoraSpec.dense x0 x1 b n o + x2 (ix1 o) := by
  have el : ∀ k : Fin 768, lidx_main_v0 (ix3 b n o) k = ix3 b n k := fun k => funext fun a => by
    match a with
    | ⟨0, _⟩ => rfl
    | ⟨1, _⟩ => rfl
    | ⟨2, _⟩ => rfl
  have er : ∀ k : Fin 768, ridx_main_v0 (ix3 b n o) k = ix2 o k := fun k => funext fun a => by
    match a with
    | ⟨0, _⟩ => rfl
    | ⟨1, _⟩ => rfl
  have eb : idx_main_v1 (idx_main_v2 (ix3 b n o)) = ix1 o := funext fun a => by
    match a with
    | ⟨0, _⟩ => rfl
  rw [val_main_v3_apply, val_main_v0_apply, val_main_v2_apply, val_main_v1_apply, eb]
  show (∑ k : Fin 768, x0 (lidx_main_v0 (ix3 b n o) k) * x1 (ridx_main_v0 (ix3 b n o) k)) + x2 (ix1 o) = _
  refine congrArg (· + x2 (ix1 o)) (Finset.sum_congr rfl fun k _ => ?_)
  rw [el k, er k]

/-- One rank-16 correction, at one element: down through 16 coordinates, then up. -/
private theorem lowRank_read (x0 : (⟨S64x197x768, .f32⟩ : BufTy).Contents (Elt Ideal))
    (a : (⟨S16x768, .f32⟩ : BufTy).Contents (Elt Ideal)) (u : (⟨S768x16, .f32⟩ : BufTy).Contents (Elt Ideal))
    (b : Fin 64) (n : Fin 197) (c : Fin 768) :
    val_main_v5 (F := Ideal) x0 a u (ix3 b n c) = Cert.LoraSpec.lowRank x0 a u b n c := by
  have el5 : ∀ r : Fin 16, lidx_main_v5 (ix3 b n c) r = ix3 b n r := fun r => funext fun d => by
    match d with
    | ⟨0, _⟩ => rfl
    | ⟨1, _⟩ => rfl
    | ⟨2, _⟩ => rfl
  have er5 : ∀ r : Fin 16, ridx_main_v5 (ix3 b n c) r = ix2 c r := fun r => funext fun d => by
    match d with
    | ⟨0, _⟩ => rfl
    | ⟨1, _⟩ => rfl
  have el4 : ∀ (r : Fin 16) (k : Fin 768), lidx_main_v4 (ix3 b n r) k = ix3 b n k := fun r k => funext fun d => by
    match d with
    | ⟨0, _⟩ => rfl
    | ⟨1, _⟩ => rfl
    | ⟨2, _⟩ => rfl
  have er4 : ∀ (r : Fin 16) (k : Fin 768), ridx_main_v4 (ix3 b n r) k = ix2 r k := fun r k => funext fun d => by
    match d with
    | ⟨0, _⟩ => rfl
    | ⟨1, _⟩ => rfl
  rw [val_main_v5_apply]
  unfold Cert.LoraSpec.lowRank Cert.LoraSpec.down
  refine Finset.sum_congr rfl fun r _ => ?_
  rw [el5 r, er5 r, val_main_v4_apply]
  refine congrArg (· * u (ix2 c r)) (Finset.sum_congr rfl fun k _ => ?_)
  rw [el4 r k, er4 r k]

/-- The three corrections laid end to end along the output axis, at one element: an output column lies in exactly one
    of the three spans of 768, and the value there is that section's correction at the column inside the section. -/
private theorem concat_read (x0 : (⟨S64x197x768, .f32⟩ : BufTy).Contents (Elt Ideal))
    (x3 : (⟨S16x768, .f32⟩ : BufTy).Contents (Elt Ideal)) (x4 : (⟨S768x16, .f32⟩ : BufTy).Contents (Elt Ideal))
    (x5 : (⟨S16x768, .f32⟩ : BufTy).Contents (Elt Ideal)) (x6 : (⟨S768x16, .f32⟩ : BufTy).Contents (Elt Ideal))
    (x7 : (⟨S16x768, .f32⟩ : BufTy).Contents (Elt Ideal)) (x8 : (⟨S768x16, .f32⟩ : BufTy).Contents (Elt Ideal))
    (b : Fin 64) (n : Fin 197) (o : Fin 2304) :
    val_main_v10 (F := Ideal) x0 x3 x4 x5 x6 x7 x8 (ix3 b n o)
      = Cert.LoraSpec.pick (Cert.LoraSpec.sec o) (val_main_v5 (F := Ideal) x0 x3 x4) (val_main_v7 (F := Ideal) x0 x5 x6)
          (val_main_v9 (F := Ideal) x0 x7 x8) (ix3 b n (Cert.LoraSpec.off o)) := by
  unfold val_main_v10
  have hlt : o.val < 2304 := o.isLt
  -- off the joined axis the coordinates are the token's own
  have hoffaxis : ∀ d : Fin S64x197x768.rank, d.cast (rfl : S64x197x768.rank = S64x197x2304.rank) ≠ (2 : Fin S64x197x2304.rank) →
      ((ix3 b n (Cert.LoraSpec.off o) : S64x197x768.Idx) d).val
        = ((ix3 b n o : S64x197x2304.Idx) (d.cast (rfl : S64x197x768.rank = S64x197x2304.rank))).val := by
    intro d hd
    match d, hd with
    | ⟨0, _⟩, _ => rfl
    | ⟨1, _⟩, _ => rfl
    | ⟨2, _⟩, hd => exact absurd rfl hd
  by_cases h1 : o.val < 768
  · have hs : Cert.LoraSpec.sec o = ⟨0, by decide⟩ := Fin.ext (by show o.val / 768 = 0; omega)
    rw [hs]
    show _ = val_main_v5 (F := Ideal) x0 x3 x4 (ix3 b n (Cert.LoraSpec.off o))
    refine concatenate_apply_piece _ _ _ (ix3 b n o) 0 ?_ S64x197x768 _ rfl rfl 0 rfl
      (ix3 b n (Cert.LoraSpec.off o)) hoffaxis ?_
    · show (0 : Nat) < 3
      decide
    · show 0 + o.val % 768 = o.val
      omega
  · by_cases h2 : o.val < 1536
    · have hs : Cert.LoraSpec.sec o = ⟨1, by decide⟩ := Fin.ext (by show o.val / 768 = 1; omega)
      rw [hs]
      show _ = val_main_v7 (F := Ideal) x0 x5 x6 (ix3 b n (Cert.LoraSpec.off o))
      refine concatenate_apply_piece _ _ _ (ix3 b n o) 1 ?_ S64x197x768 _ rfl rfl 768 rfl
        (ix3 b n (Cert.LoraSpec.off o)) hoffaxis ?_
      · show (1 : Nat) < 3
        decide
      · show 768 + o.val % 768 = o.val
        omega
    · have hs : Cert.LoraSpec.sec o = ⟨2, by decide⟩ := Fin.ext (by show o.val / 768 = 2; omega)
      rw [hs]
      show _ = val_main_v9 (F := Ideal) x0 x7 x8 (ix3 b n (Cert.LoraSpec.off o))
      refine concatenate_apply_piece _ _ _ (ix3 b n o) 2 ?_ S64x197x768 _ rfl rfl 1536 rfl
        (ix3 b n (Cert.LoraSpec.off o)) hoffaxis ?_
      · show (2 : Nat) < 3
        decide
      · show 1536 + o.val % 768 = o.val
        omega

theorem ref_eq_G (x0 : (⟨S64x197x768, .f32⟩ : BufTy).Contents (Elt Ideal)) (x1 : (⟨S2304x768, .f32⟩ : BufTy).Contents (Elt Ideal))
    (x2 : (⟨S2304, .f32⟩ : BufTy).Contents (Elt Ideal)) (x3 : (⟨S16x768, .f32⟩ : BufTy).Contents (Elt Ideal))
    (x4 : (⟨S768x16, .f32⟩ : BufTy).Contents (Elt Ideal)) (x5 : (⟨S16x768, .f32⟩ : BufTy).Contents (Elt Ideal))
    (x6 : (⟨S768x16, .f32⟩ : BufTy).Contents (Elt Ideal)) (x7 : (⟨S16x768, .f32⟩ : BufTy).Contents (Elt Ideal))
    (x8 : (⟨S768x16, .f32⟩ : BufTy).Contents (Elt Ideal)) :
    val_main_v11 (F := Ideal) x0 x1 x2 x3 x4 x5 x6 x7 x8 = Cert.LoraSpec.G x0 x1 x2 x3 x4 x5 x6 x7 x8 := by
  funext i
  obtain ⟨b, n, o, rfl⟩ : ∃ (b : Fin 64) (n : Fin 197) (o : Fin 2304), i = ix3 b n o := ⟨i 0, i 1, i 2, eq_ix3 i⟩
  rw [val_main_v11_apply, dense_bias_read, concat_read, Ideal.addf_def]
  show _ = (Cert.LoraSpec.dense x0 x1 b n o + x2 (ix1 o)) + Cert.LoraSpec.adapter x0 x3 x4 x5 x6 x7 x8 b n o
  refine congrArg (Cert.LoraSpec.dense x0 x1 b n o + x2 (ix1 o) + ·) ?_
  unfold Cert.LoraSpec.adapter
  -- the section decides which pair of matrices; in each of the three cases both sides name the same pair
  generalize Cert.LoraSpec.sec o = s
  match s with
  | ⟨0, _⟩ => exact lowRank_read x0 x3 x4 b n _
  | ⟨1, _⟩ => exact lowRank_read x0 x5 x6 b n _
  | ⟨2, _⟩ => exact lowRank_read x0 x7 x8 b n _

end Cert.ReferenceIdeal.RefValue

end
-- ==== Proof.lean ====
/-
  A dense projection of tokens to query / key / value outputs with a rank-16 correction per section, computed two ways.

  The kernel program flattens the tokens to rows, pads them to a whole number of 256-row tiles, packs the three
  down-projection matrices side by side and the three up-projection matrices on the diagonal of a matrix that is zero
  elsewhere, and on each tile computes  x·Wᵀ + (x·A)·U + bias  with three matrix products; the reference computes
  (x·Wᵀ + bias) and adds, section by section, (x·a_sᵀ)·u_sᵀ. Over the extended reals, where a change of float format is the
  identity and every operation is exact, both are one function of the nine argument arrays (the specification module):
  the packed product through 48 rank coordinates splits into three blocks of 16, the two blocks of the other sections
  meet only zero entries and vanish because t · 0 = 0 for every extended real t, and the three summands that remain are
  added in two different orders. Neither distributivity nor cancelling is used, so the precondition (finite inputs) is
  never opened.

  The three frames: each kernel program runs its one region tile by tile, every staged block inside its array, and no
  host operation or transfer writes an argument array; the reference is host operations only. The idealization rewrote
  nothing, so there is nothing to preserve.
-/
import proofs.«170197_j63608465654579_1_alg».proof.Defs
import proofs.«170197_j63608465654579_1_alg».proof.Proof.Gen.Kernel
import proofs.«170197_j63608465654579_1_alg».proof.Proof.Gen.KernelIdeal
import proofs.«170197_j63608465654579_1_alg».proof.Proof.Gen.ReferenceIdeal
import proofs.«170197_j63608465654579_1_alg».proof.Proof.Gen.Pre_finite_inputs
import proofs.«170197_j63608465654579_1_alg».proof.Proof.Gen.ReferenceIdeal.Run
import proofs.«170197_j63608465654579_1_alg».proof.Proof.Gen.ReferenceIdeal.Read
import proofs.«170197_j63608465654579_1_alg».proof.Proof.BitsFrame
import proofs.«170197_j63608465654579_1_alg».proof.Proof.IdealFrame
import proofs.«170197_j63608465654579_1_alg».proof.Proof.KernelValue
import proofs.«170197_j63608465654579_1_alg».proof.Proof.RefIsSpec
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Fr.frame m ρ

/-- So does the idealized kernel program. -/
theorem frame_kernelIdeal : Cert.frame_KernelIdeal := fun m ρ _ => Cert.KernelIdeal.Fr.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the specification's result of their (agreeing) argument arrays. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v11_eq, Cert.ReferenceIdeal.RefValue.ref_eq_G, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
